-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S256x4096 : Shape := ⟨2, ![256, 4096]⟩
abbrev S4096x256 : Shape := ⟨2, ![4096, 256]⟩
abbrev S256 : Shape := ⟨1, ![256]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x4096 : S_.BroadcastsInDim S256x4096 (![] : Fin 0 → Fin S256x4096.rank)
  reducesTo_S256x4096_S_d0_1 : S256x4096.ReducesTo [0, 1] S_
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S256 .f32) (main_arg5 : FVec F S4096 .f32) (main_v13 : IVec S_ 1) (main_v16 : IVec S4096x256 1) : IVec S_ 1 :=
  let main_c_5 : IVec S_ 1 := constantI S_ 1 1#1
  let main_v17 : IVec S_ 1 := (fun x v => Host.reduce IntOp.andi x v reducesTo_S4096x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S256x4096 .f32) (main_arg3 : FVec F S4096x256 .f32) (main_arg4 : FVec F S256 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S4096x256 .f32 := Host.absf main_arg3
  let main_cst_4 : FVec F S_ .f32 := constant S_ .f32 0x7F800000#32
  let main_v15 : FVec F S4096x256 .f32 := broadcastInDim S4096x256 ![] bcast_S_S4096x256 main_cst_4
  let main_v16 : IVec S4096x256 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S256x4096 : Shape := ⟨2, ![256, 4096]⟩
abbrev S4096x256 : Shape := ⟨2, ![4096, 256]⟩
abbrev S256 : Shape := ⟨1, ![256]⟩
abbrev S4096 : Shape := ⟨1, ![4096]⟩
abbrev S8192x4096 : Shape := ⟨2, ![8192, 4096]⟩
abbrev S1x256 : Shape := ⟨2, ![1, 256]⟩
abbrev S1x4096 : Shape := ⟨2, ![1, 4096]⟩
abbrev S8192x256 : Shape := ⟨2, ![8192, 256]⟩
abbrev S512x4096 : Shape := ⟨2, ![512, 4096]⟩
abbrev S512x256 : Shape := ⟨2, ![512, 256]⟩
abbrev S1024x1024 : Shape := ⟨2, ![1024, 1024]⟩
abbrev S1024x256 : Shape := ⟨2, ![1024, 256]⟩
abbrev S1x1024 : Shape := ⟨2, ![1, 1024]⟩

abbrev nBuf : Space → Nat
  | .hbm => 12
  | .vmem => 19
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S256x4096, .f32⟩
  | .hbm, ⟨3, _⟩ => ⟨S4096x256, .f32⟩
  | .hbm, ⟨4, _⟩ => ⟨S256, .f32⟩
  | .hbm, ⟨5, _⟩ => ⟨S4096, .f32⟩
  | .hbm, ⟨6, _⟩ => ⟨S8192x4096, .f32⟩
  | .hbm, ⟨7, _⟩ => ⟨S1x256, .f32⟩
  | .hbm, ⟨8, _⟩ => ⟨S1x4096, .f32⟩
  | .hbm, ⟨9, _⟩ => ⟨S8192x256, .f32⟩
  | .hbm, ⟨10, _⟩ => ⟨S8192x4096, .f32⟩
  | .hbm, ⟨11, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .f32⟩
  | .local _ .vmem, ⟨3, _⟩ => ⟨S1x256, .f32⟩
  | .local _ .vmem, ⟨4, _⟩ => ⟨S512x256, .f32⟩
  | .local _ .vmem, ⟨5, _⟩ => ⟨S512x256, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x2048x4096_S8192x4096 : S4x2048x4096.ShapeCasts S8192x4096
  shapeCasts_S256_S1x256 : S256.ShapeCasts S1x256
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  dot_S1024x256_S1024x256_S1024x1024_1_1_0_0_n_n_wf : DotDims.WF S1024x256 S1024x256 S1024x1024 [1] [1] [0] [0] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x4096.size a
  hwx0_1 : ∀ i : grid0.Coords, EltTy.bits .f32 = 32 ∨ (Rect.block (s := S256x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .f32 = 32 ∨ (Rect.block (s := S8192x256) S512x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S4096x256.size a
  hwx1_3 : ∀ i : grid1.Coords, EltTy.bits .f32 = 32 ∨ (Rect.block (s := S4096x256) S1024x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x4096.size a
  hwx1_5 : ∀ i : grid1.Coords, EltTy.bits .f32 = 32 ∨ (Rect.block (s := S8192x4096) S1024x1024.size (cc1_transform_5 i) (hinb1_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S256x4096 : Shape := ⟨2, ![256, 4096]⟩
abbrev S4096x256 : Shape := ⟨2, ![4096, 256]⟩
abbrev S256 : Shape := ⟨1, ![256]⟩
abbrev S4096 : Shape := ⟨1, ![4096]⟩
abbrev S4x2048x256 : Shape := ⟨3, ![4, 2048, 256]⟩
abbrev S1x1x256 : Shape := ⟨3, ![1, 1, 256]⟩
abbrev S1x1x4096 : Shape := ⟨3, ![1, 1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S256x4096, .f32⟩
  | .hbm, ⟨3, _⟩ => ⟨S4096x256, .f32⟩
  | .hbm, ⟨4, _⟩ => ⟨S256, .f32⟩
  | .hbm, ⟨5, _⟩ => ⟨S4096, .f32⟩
  | .hbm, ⟨6, _⟩ => ⟨S4x2048x4096, .f32⟩
  | .hbm, ⟨7, _⟩ => ⟨S4x2048x256, .f32⟩
  | .hbm, ⟨8, _⟩ => ⟨S1x1x256, .f32⟩
  | .hbm, ⟨9, _⟩ => ⟨S4x2048x256, .f32⟩
  | .hbm, ⟨10, _⟩ => ⟨S4x2048x256, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x2048x256_0_1_2 : S1x1x256.BroadcastsInDim S4x2048x256 (![0, 1, 2] : Fin 3 → Fin S4x2048x256.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S256x4096_S4x2048x256_2_1_01_0_n_n_wf : DotDims.WF S4x2048x4096 S256x4096 S4x2048x256 [2] [1] [0, 1] [0] [] []
  dot_S4x2048x256_S4096x256_S4x2048x4096_2_1_01_0_n_n_wf : DotDims.WF S4x2048x256 S4096x256 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S256x4096_S4x2048x256_2_1_01_0_n_n : DotDims S4x2048x4096 S256x4096 S4x2048x256 where
  lhsContracting := [2]
  rhsContracting := [1]
  lhsNonContracting := [0, 1]
  rhsNonContracting := [0]
  lhsBatch := []
  rhsBatch := []
  wf := dot_S4x2048x4096_S256x4096_S4x2048x256_2_1_01_0_n_n_wf
def dot_S4x2048x256_S4096x256_S4x2048x4096_2_1_01_0_n_n : DotDims S4x2048x256 S4096x256 S4x2048x4096 where
  lhsContracting := [2]
  rhsContracting := [1]
  lhsNonContracting := [0, 1]
  rhsNonContracting := [0]
  lhsBatch := []
  rhsBatch := []
  wf := dot_S4x2048x256_S4096x256_S4x2048x4096_2_1_01_0_n_n_wf

class Facts : Prop extends Facts₀ where

variable [Facts]
-- ==== Proof.Kernel.XaRegion.lean ====
/-
  The first kernel region: sixteen row blocks of 512 rows. At each block the body reads the block of activations, the
  whole down-projection and the whole rank scale, and stores the scaled projection of those 512 rows whole into its
  output block. Stated here at any float instance: what the output's buffer holds after the body as a function of the
  three blocks read, the body's triple, the region's proof data (every array as the region finds it, every input's
  buffer at its block, the output's at the scaled projection of the blocks), and the obligation at every block.
-/
import proofs.«131417_j40355512714085_1_alg».proof.Proof.Gen.Kernel.Launch
import proofs.«131417_j40355512714085_1_alg».proof.Proof.Gen.Kernel.Skeleton
import proofs.«131417_j40355512714085_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything here is stated at
variable (V : (c : Dev nD) → (b : Ref sig .tc) → Buf (Elt F) ((c : Thread nD τ).loc b))

/-- Window w's block at row block t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev r0_x : Rect S512x4096 := Rect.unit (s := S512x4096) ![0, 0] S512x4096.size inb_S512x4096_S512x4096_0_0
abbrev r0_a : Rect S256x4096 := Rect.unit (s := S256x4096) ![0, 0] S256x4096.size inb_S256x4096_S256x4096_0_0
abbrev r0_d : Rect S1x256 := Rect.unit (s := S1x256) ![0, 0] S1x256.size inb_S1x256_S1x256_0_0
abbrev r0_o : Rect S512x256 := Rect.unit (s := S512x256) ![0, 0] S512x256.size inb_S512x256_S512x256_0_0

/-- What the body leaves in the output's buffer: its one store, of the scaled projection of the three blocks read. -/
def xaOut (x0 : Vec F S512x4096 .f32) (x1 : Vec F S256x4096 .f32) (x2 : Vec F S1x256 .f32) : Vec F S512x256 .f32 :=
  View.canon [⟨r0_o, k0_pay1 (View.ld x0 r0_x) (View.ld x1 r0_a) (View.ld x2 r0_d)⟩]

/-- The region's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => xaOut (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = xaOut (iblk0 V c 0 t) (iblk0 V c 1 t) (iblk0 V c 2 t) := by dsimp only [dat0]

/-- The activations' current buffer holds the row block's activations at every block: fetched there each time. -/
private theorem before_x (c : Dev nD) (t : Fin cfg0.N) (d) : (dat0 V c).before 0 t d = iblk0 V c 0 t :=
  ((dat0 V c).before_in_eq_fetched 0 rfl (fun _ => rfl) (fun _ _ _ => rfl)
    (fun t => by rw [after0_0 V c t]; unfold Dat.blockOf iblk0; rw [A_eq0 V c 0]; try rfl) t d).trans
    (by unfold Dat.fetched Dat.blockOf iblk0; rw [A_eq0 V c 0]; try rfl)

/-- The down-projection's buffer holds the whole down-projection at every block: fetched at the first block only,
    and its block index never moves afterwards. -/
private theorem before_a (c : Dev nD) (t : Fin cfg0.N) (d) : (dat0 V c).before 1 t d = iblk0 V c 1 t :=
  ((dat0 V c).before_in_eq_fetched 1 rfl (fun _ => rfl) (fun _ _ _ => rfl)
    (fun t => by rw [after0_1 V c t]; unfold Dat.blockOf iblk0; rw [A_eq0 V c 1]; try rfl) t d).trans
    (by unfold Dat.fetched Dat.blockOf iblk0; rw [A_eq0 V c 1]; try rfl)

/-- The same of the rank scale's buffer. -/
private theorem before_d (c : Dev nD) (t : Fin cfg0.N) (d) : (dat0 V c).before 2 t d = iblk0 V c 2 t :=
  ((dat0 V c).before_in_eq_fetched 2 rfl (fun _ => rfl) (fun _ _ _ => rfl)
    (fun t => by rw [after0_2 V c t]; unfold Dat.blockOf iblk0; rw [A_eq0 V c 2]; try rfl) t d).trans
    (by unfold Dat.fetched Dat.blockOf iblk0; rw [A_eq0 V c 2]; try rfl)

/-- The one store is of the whole output block, so every index of the block is under it. -/
private theorem cover_o (p : Vec F S512x256 .f32) (y : S512x256.Idx) :
    ∃ pc ∈ ([⟨r0_o, p⟩] : List (View.Piece (Elt F) S512x256 .f32)), y ∈ pc.1.set :=
  View.cover_of_tiled [⟨r0_o, p⟩] S512x256.size (by rfl) y

set_option maxHeartbeats 1000000 in
/-- The body on whole buffers: the three inputs read x0, x1, x2 and come back unchanged; the output's buffer, whatever
    it held, comes back holding the scaled projection xaOut x0 x1 x2. -/
private theorem sound_kernel0 (c : Dev nD) (E : Set ℕ) (i : grid0.Coords)
    (arg1 : Memref sig .tc .vmem S512x4096 .f32) (harg1 : arg1.IsWhole)
    (arg2 : Memref sig .tc .vmem S256x4096 .f32) (harg2 : arg2.IsWhole)
    (arg3 : Memref sig .tc .vmem S1x256 .f32) (harg3 : arg3.IsWhole)
    (arg4 : Memref sig .tc .vmem S512x256 .f32) (harg4 : arg4.IsWhole)
    (x0 : Vec F S512x4096 .f32) (x1 : Vec F S256x4096 .f32) (x2 : Vec F S1x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (xaOut x0 x1 x2)) -∗ K ⟨⟩))
      ⊢ wp frame (wpE (defs₀ (F := F)) Variants.none c none) E (cc0__xa_kernel i arg1 harg1 arg2 harg2 arg3 harg3 arg4 harg4) K := by
  simp only [cc0__xa_kernel_eq_skeleton]; unfold cc0__xa_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_o _)

/-- What the body is handed at row block t: the invariant, the core's debts, and each window's current buffer. -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any row block: its inputs' buffers hold their blocks, so the triple on whole buffers applies; the
    invariant and the debts are not touched. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before_x, before_a, before_d]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every row block. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.Kernel.AccCases.lean ====
/-
  The second kernel region, what its three cases share. Its grid is 8 row blocks by 4 column blocks by 4 blocks of
  the contracted columns, the last axis innermost, so point t is at contracted block t mod 4. The body keeps an
  accumulator in a scratch buffer across the four points of one output block: at contracted block 0 it resets the
  accumulator to the correction (the low-rank term plus the bias), at every point it adds that block's part of the base
  contraction, and at contracted block 3 it copies the accumulator into the output block, which is written back only
  there. So the grid's points fall into three cases by t mod 4: 0 (reset and add), 1 or 2 (add), 3 (add and copy out).
  Here: each window's block at a point; that each input's staging buffer holds its block at every point, fetched there
  or not; the two branch conditions decided over the 128 points; where the output window is idle; the staging and
  scratch memrefs by name; and the region's class invariant with the scratch singled out.
-/
import proofs.«131417_j40355512714085_1_alg».proof.Proof.Gen.Kernel.Launch
import proofs.«131417_j40355512714085_1_alg».proof.Proof.Gen.Kernel.Skeleton
import proofs.«131417_j40355512714085_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point: where it is not fetched its block
    index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two branches, over the grid -/

/-- "This is the first block of contracted columns." -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last block of contracted columns." -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At the first contracted block the body stores nothing into the output window, and it is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- The same at the two middle blocks. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At the last contracted block the body stores into the output window. -/
theorem liveAt1_5_C : ∀ t : Fin cfg1.N, ¬cond1_0 (grid1.coords t) → cond1_1 (grid1.coords t) → cfg1.idle 5 (grid1.coords t) = false := by decide +kernel

/-! ## The memrefs by name -/

/-- One staging buffer of the output window, through which its contents are stated. -/
abbrev VO1_5 : View sig .tc .vmem S1024x1024 .f32 := (Memref.whole cc1_stg5_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S1024x1024 .f32 := Memref.whole cc1_scratch0
abbrev VS1_0 : View sig .tc .vmem S1024x1024 .f32 := scM1_0.view

/-- The region's class invariant with the accumulator singled out as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Run

end
-- ==== Proof.Kernel.AccRunFirst.lean ====
/-
  The accumulating kernel's body at the FIRST block of contracted columns (t mod 4 = 0): it stores the correction
  (the low-rank term plus the bias, from the projection block, the up-projection block and the bias block) into the
  accumulator, reads it back, adds this block's part of the base contraction and stores the sum. The output buffer is
  not touched. Stated on whole memrefs at any contents of the five inputs, the accumulator at anything on entry;
  the pieces the accumulator ends with are what the run finds.
-/
import proofs.«131417_j40355512714085_1_alg».proof.Proof.Kernel.AccCases

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 x1 : Vec F S1024x1024 .f32) (x2 x3 : Vec F S1024x256 .f32) (x4 : Vec F S1x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Run

end
-- ==== Proof.Kernel.AccRunMid.lean ====
/-
  The accumulating kernel's body at a MIDDLE block of contracted columns (t mod 4 = 1 or 2): it reads the
  accumulator as the point before left it, adds this block's part of the base contraction and stores the sum. Stated
  on whole memrefs at any contents of the two blocks read and of the accumulator on entry; the pieces the accumulator
  ends with are what the run finds.
-/
import proofs.«131417_j40355512714085_1_alg».proof.Proof.Kernel.AccRunFirst

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 x1 : Vec F S1024x1024 .f32) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg9 fullShare xs0
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Run

end
-- ==== Proof.Kernel.AccRunLast.lean ====
/-
  The accumulating kernel's body at the LAST block of contracted columns (t mod 4 = 3): it reads the accumulator as
  the point before left it, adds this block's part of the base contraction, stores the sum, reads it back and stores
  it whole into the output block. Stated on whole memrefs at any contents of the two blocks read and of the
  accumulator on entry, the output buffer at anything; the pieces the output buffer and the accumulator end with are
  what the run finds.
-/
import proofs.«131417_j40355512714085_1_alg».proof.Proof.Kernel.AccRunMid

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 x1 : Vec F S1024x1024 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%d5, %f5, -, H5⟩, ⟨%fs0, %hfs0, HS0⟩, Hk⟩
    obtain rfl := harg3.eq_unread hf0; obtain rfl := harg4.eq_unread hf1; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H5]; · iexists _; iexact H5
    iexists _; iexact HS0

end Cert.Kernel.Run

end
-- ==== Proof.Kernel.AccRegion.lean ====
/-
  The second kernel region as a whole. What the accumulator holds after each point is defined by recursion on the
  point: at a point with t mod 4 = 0 it is what the reset-and-add case leaves from that point's five blocks; at any
  other point it is what the add case leaves from that point's two blocks over what the point before left. The output
  block's buffer holds the accumulator's contents at the points with t mod 4 = 3 and is idle elsewhere. The region's
  invariant before a point carries the accumulator at what the point before left (before the first point, at
  anything), and the region's other scoped buffers at anything. With these as proof data the body meets its
  obligation at every point, by cases on t mod 4.
-/
import proofs.«131417_j40355512714085_1_alg».proof.Proof.Kernel.AccRunLast

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from the pieces its run found -/

/-- The reset-and-add case's stores cover the accumulator. -/
theorem scover1_A_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 x1 : Vec F S1024x1024 .f32) (x2 x3 : Vec F S1024x256 .f32) (x4 : Vec F S1x1024 .f32) (y : S1024x1024.Idx) :
    ∃ pc ∈ (kernelRun1_A c i arg3 harg3 arg4 harg4 arg5 harg5 arg6 harg6 arg7 harg7 arg8 harg8 arg9 harg9 hc0 hc1 x0 x1 x2 x3 x4).1, y ∈ pc.1.set :=
  View.cover_of_tiledL (kernelRun1_A c i arg3 harg3 arg4 harg4 arg5 harg5 arg6 harg6 arg7 harg7 arg8 harg8 arg9 harg9 hc0 hc1 x0 x1 x2 x3 x4).1 S1024x1024.size (by sl_kernel_rfl) y
/-- What it leaves in the accumulator. -/
def sout1_A_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 x1 : Vec F S1024x1024 .f32) (x2 x3 : Vec F S1024x256 .f32) (x4 : Vec F S1x1024 .f32) : Vec F S1024x1024 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).1)

/-- The add case's store covers the accumulator. -/
theorem scover1_B_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 x1 : Vec F S1024x1024 .f32) (xs0 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 xs0).1, y ∈ pc.1.set :=
  View.cover_of_tiledL (kernelRun1_B c i arg3 harg3 arg4 harg4 arg5 harg5 arg6 harg6 arg7 harg7 arg8 harg8 arg9 harg9 hc0 hc1 x0 x1 xs0).1 S1024x1024.size (by sl_kernel_rfl) y
/-- What it leaves in the accumulator. -/
def sout1_B_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 x1 : Vec F S1024x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 xs0).1)

/-- The add-and-copy-out case's store into the output block covers it, -/
theorem cover1_C_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 x1 : Vec F S1024x1024 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 xs0).1, y ∈ pc.1.set :=
  View.cover_of_tiledL (kernelRun1_C c i arg3 harg3 arg4 harg4 arg5 harg5 arg6 harg6 arg7 harg7 arg8 harg8 arg9 harg9 hc0 hc1 x0 x1 xs0).1 S1024x1024.size (by sl_kernel_rfl) y
/-- what it leaves in the output block's buffer, -/
def out1_C_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 x1 : Vec F S1024x1024 .f32) (xs0 : Vec F S1024x1024 .f32) : Vec F S1024x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 xs0).1)
/-- its store into the accumulator covers it, -/
theorem scover1_C_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 x1 : Vec F S1024x1024 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 xs0).2.1, y ∈ pc.1.set :=
  View.cover_of_tiledL (kernelRun1_C c i arg3 harg3 arg4 harg4 arg5 harg5 arg6 harg6 arg7 harg7 arg8 harg8 arg9 harg9 hc0 hc1 x0 x1 xs0).2.1 S1024x1024.size (by sl_kernel_rfl) y
/-- and what it leaves in the accumulator. -/
def sout1_C_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 x1 : Vec F S1024x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 xs0).2.1)

/-- Where the output window is idle its buffer's contents are never consulted: a placeholder. -/
def outIdle : Vec F S1024x1024 .f32 := VO1_5.read (Elt F) (VO1_5.writes (Elt F) VO1_5.junk [])

/-! ## Point by point -/

/-- What the output block's buffer (first component) and the accumulator (second) hold after the body at point n. -/
def outsAt1 (c : Dev nD) : (n : ℕ) → n < cfg1.N → Vec F S1024x1024 .f32 × Vec F S1024x1024 .f32
  | 0, hn => (outIdle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (outIdle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (outIdle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point with t mod 4 = 0: the reset-and-add case's contents. -/
theorem outsAt1_A (c : Dev nD) (t : Fin cfg1.N) (h0 : t.val % 4 = 0) (h1 : ¬t.val % 4 = 3) :
    outsAt1 V c t.val t.isLt = (outIdle, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- At a point with t mod 4 = 1 or 2: the add case's contents over what the point before left. -/
theorem outsAt1_B (c : Dev nD) (t : Fin cfg1.N) (h0 : ¬t.val % 4 = 0) (h1 : ¬t.val % 4 = 3) :
    outsAt1 V c t.val t.isLt = (outIdle, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with t mod 4 = 3: the add-and-copy-out case's contents over what the point before left. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the class's (the accumulator at anything);
    afterwards the other scoped buffers at anything, the accumulator at what the point before left, and the
    generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's obligation -/

/-- What the body is handed at point t: the invariant before it, what the core owes, and the six windows' current
    buffers one by one, each at what it holds on entry. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it must give back: the invariant before the next point, what the core owes, and each window's buffer at
    what the body leaves in it. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- At a point with t mod 4 = 0 the body resets the accumulator and adds: it needs the five input blocks and the
    accumulator at anything (which is all the invariant knows of it before the very first point, and more than
    enough afterwards); the output window is idle and goes back as it came. -/
theorem sound_body1_A (c : Dev nD) (t : Fin cfg1.N) (h0 : t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
  rw [outsAt1_A V c t h0 h1]
  unfold sout1_A_0; (try dsimp only)
  by_cases hz : t.val = 0
  · rw [PhiS_castSucc V c t, PhiS_zero V c _ _ hz, PhiA1_eq]
    iintro ⟨⟨⟨Ho1, Ho2, Ho3, Ho4, Ho5, Ho6, HS0⟩, Hg⟩, Ho, ⟨%d0, H0⟩, ⟨%d1, H1⟩, ⟨%d2, H2⟩, ⟨%d3, H3⟩, ⟨%d4, H4⟩, H5⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [Ho1 Ho2 Ho3 Ho4 Ho5 Ho6 HS0 Hg]
    · isplitl [Ho1 Ho2 Ho3 Ho4 Ho5 Ho6 HS0]
      · isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        unfold owns; iexists _; isplitr
        swap; · iexact HS0
        ipureintro; exact View.read_writes_of_cover _ _ _ _ _ (scover1_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_castSucc V c t, PhiS_pos V c _ _ hz]
    iintro ⟨⟨⟨Ho1, Ho2, Ho3, Ho4, Ho5, Ho6, HS0⟩, Hg⟩, Ho, ⟨%d0, H0⟩, ⟨%d1, H1⟩, ⟨%d2, H2⟩, ⟨%d3, H3⟩, ⟨%d4, H4⟩, H5⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
    isplitl [H0]; · iexact H0
    isplitl [H1]; · iexact H1
    isplitl [H2]; · iexact H2
    isplitl [H3]; · iexact H3
    isplitl [H4]; · iexact H4
    isplitl [HS0]; · iexists _; iexact HS0
    iintro ⟨H0, H1, H2, H3, H4, ⟨%es0, HS0⟩⟩
    isplitl [Ho1 Ho2 Ho3 Ho4 Ho5 Ho6 HS0 Hg]
    · isplitl [Ho1 Ho2 Ho3 Ho4 Ho5 Ho6 HS0]
      · isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        unfold owns; iexists _; isplitr
        swap; · iexact HS0
        ipureintro; exact View.read_writes_of_cover _ _ _ _ _ (scover1_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexact H5

set_option maxHeartbeats 4800000 in
/-- At a point with t mod 4 = 1 or 2 the body adds to the accumulator: it needs the first two input blocks and the
    accumulator at exactly what the point before left; the other three inputs and the idle output window go back
    as they came. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
  rw [outsAt1_B V c t h0 h1]
  unfold sout1_B_0; (try dsimp only)
  have hz : t.val ≠ 0 := fun h => h0 (by rw [h])
  rw [PhiS_castSucc V c t, PhiS_pos V c _ _ hz]
  iintro ⟨⟨⟨Ho1, Ho2, Ho3, Ho4, Ho5, Ho6, HS0⟩, Hg⟩, Ho, ⟨%d0, H0⟩, ⟨%d1, H1⟩, ⟨%d2, H2⟩, ⟨%d3, H3⟩, ⟨%d4, H4⟩, H5⟩
  iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2).2 Set.univ _)
  isplitl [H0]; · iexact H0
  isplitl [H1]; · iexact H1
  isplitl [HS0]; · iexact HS0
  iintro ⟨H0, H1, ⟨%es0, HS0⟩⟩
  isplitl [Ho1 Ho2 Ho3 Ho4 Ho5 Ho6 HS0 Hg]
  · isplitl [Ho1 Ho2 Ho3 Ho4 Ho5 Ho6 HS0]
    · isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      unfold owns; iexists _; isplitr
      swap; · iexact HS0
      ipureintro; exact View.read_writes_of_cover _ _ _ _ _ (scover1_B_0 c _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4800000 in
/-- At a point with t mod 4 = 3 the body adds to the accumulator and copies it out: it needs the first two input
    blocks, the accumulator at exactly what the point before left, and the output block's buffer at anything; both
    the accumulator and the output buffer come back covered by its stores. -/
theorem sound_body1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5_C t (fun h => h0 ((hcond1_0 t).mp h)) ((hcond1_1 t).mpr h1)], after1_5]
  rw [outsAt1_C V c t h0 h1]
  unfold out1_C_5 sout1_C_0; (try dsimp only)
  have hz : t.val ≠ 0 := fun h => h0 (by rw [h])
  rw [PhiS_castSucc V c t, PhiS_pos V c _ _ hz]
  iintro ⟨⟨⟨Ho1, Ho2, Ho3, Ho4, Ho5, Ho6, HS0⟩, Hg⟩, Ho, ⟨%d0, H0⟩, ⟨%d1, H1⟩, ⟨%d2, H2⟩, ⟨%d3, H3⟩, ⟨%d4, H4⟩, ⟨%d5, H5⟩⟩
  iapply ((kernelRun1_C c (grid1.coords t) _ _ _ _ _ _ _ _ _ _ _ _ _ _ (fun h => h0 ((hcond1_0 t).mp h)) ((hcond1_1 t).mpr h1) (iblk1 V c 0 t) (iblk1 V c 1 t) (outsAt1 V c (t.val - 1) (Nat.lt_of_le_of_lt (Nat.sub_le _ _) t.isLt)).2).2.2 Set.univ _)
  isplitl [H0]; · iexact H0
  isplitl [H1]; · iexact H1
  isplitl [H5]; · iexists _; iexact H5
  isplitl [HS0]; · iexact HS0
  iintro ⟨H0, H1, ⟨%e5, H5⟩, ⟨%es0, HS0⟩⟩
  isplitl [Ho1 Ho2 Ho3 Ho4 Ho5 Ho6 HS0 Hg]
  · isplitl [Ho1 Ho2 Ho3 Ho4 Ho5 Ho6 HS0]
    · isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      unfold owns; iexists _; isplitr
      swap; · iexact HS0
      ipureintro; exact View.read_writes_of_cover _ _ _ _ _ (scover1_C_0 c _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_C_5 c _ _ _ _ _ _ _ _ _ _ _ _ _ _ _ _ _ _ _ _)

/-- The body at any point, by the three cases of t mod 4. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · by_cases h1 : t.val % 4 = 3
    · exfalso; omega
    · exact sound_body1_A V c t h0 h1
  · by_cases h1 : t.val % 4 = 3
    · exact sound_body1_C V c t h0 h1
    · exact sound_body1_B V c t h0 h1

/-- The body's obligation at every point of the 8 × 4 × 4 grid. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After any point but the first the invariant gives the class's back: what the accumulator holds is forgotten,
    the other buffers and the generator register pass through. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ho1, Ho2, Ho3, Ho4, Ho5, Ho6, HS0⟩, Hg⟩
  isplitl [Ho1 Ho2 Ho3 Ho4 Ho5 Ho6 HS0]
  · isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexists _; iexact HS0
  iexact Hg

/-- After the last point the invariant gives the class's back: the accumulator's named contents are forgotten. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Run

end
-- ==== Proof.Kernel.MainRun.lean ====
/-
  The whole program as a run: three reshapes (the activations flattened to 8192 rows, the rank scale and the bias as
  rows), the projection region, the accumulating region, and the reshape of the 8192-row result back to batch by
  sequence. The buffer contents at each boundary are a fold from the launch memory: after a stretch of host
  operations what those operations compute; after a region its arrays at what its write-backs leave and every other
  buffer as it was. Every weakly fair execution terminates with every unscoped buffer at the last boundary's
  contents; no item writes an argument, so each argument ends as launched.
-/
import proofs.«131417_j40355512714085_1_alg».proof.Proof.Kernel.XaRegion
import proofs.«131417_j40355512714085_1_alg».proof.Proof.Kernel.AccRegion

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the three reshapes (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit (the accumulating region's entry: no host operation stands between them). -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- At the accumulating region's exit. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the last reshape. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-! ## No item writes an argument -/

/-- The three reshapes write only their three results: any other buffer is as at launch. -/
private theorem W1_of_ne (c : Dev nD) (b : Ref sig .tc) (h0 : main_v0 ≠ b) (h1 : main_v1 ≠ b) (h2 : main_v2 ≠ b) :
    W1 m c (Proc.devRef .tc b) = W0 m c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    exact ⟨StableHlo.devRef_ne_of_ne (Ne.symm h0), StableHlo.devRef_ne_of_ne (Ne.symm h1), StableHlo.devRef_ne_of_ne (Ne.symm h2)⟩))

/-- The last reshape writes only its result. -/
private theorem W4_of_ne (c : Dev nD) (b : Ref sig .tc) (h : main_v5 ≠ b) :
    W4 m c (Proc.devRef .tc b) = W3 m c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    exact StableHlo.devRef_ne_of_ne (Ne.symm h)))

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := W1_of_ne m c main_arg0 (by decide) (by decide) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) :=
        (W3_arr m c 1).trans (((dat1 (V2 m) c).arrAt_in 1 rfl _).trans (A_eq1 (V2 m) c 1))
    _ = W1 m c (Proc.devRef .tc main_arg1) := W2_of_ne m c main_arg1 (by decide)
    _ = W0 m c (Proc.devRef .tc main_arg1) := W1_of_ne m c main_arg1 (by decide) (by decide) (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) :=
        (W2_arr m c 1).trans (((dat0 (V1 m) c).arrAt_in 1 rfl _).trans (A_eq0 (V1 m) c 1))
    _ = W0 m c (Proc.devRef .tc main_arg2) := W1_of_ne m c main_arg2 (by decide) (by decide) (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) :=
        (W3_arr m c 3).trans (((dat1 (V2 m) c).arrAt_in 3 rfl _).trans (A_eq1 (V2 m) c 3))
    _ = W1 m c (Proc.devRef .tc main_arg3) := W2_of_ne m c main_arg3 (by decide)
    _ = W0 m c (Proc.devRef .tc main_arg3) := W1_of_ne m c main_arg3 (by decide) (by decide) (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of_ne m c main_arg4 (by decide) (by decide) (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of_ne m c main_arg5 (by decide) (by decide) (by decide)
    _ = m ((c : Thread nD τ).loc main_arg5) := rfl

/-! ## What each region leaves, as the hypotheses of putting its arrays back among the unscoped buffers -/

/-- At the projection region's exit each of its arrays holds what the pipeline leaves, -/
theorem proj_arr (c : Dev nD) (w : Fin cfg0.W) : (dat0 (V1 m) c).arrAt w cfg0.N = V2 m c (Pipeline.arrRef spec0 w) :=
  (W2_arr m c w).symm
/-- and any buffer that is none of its arrays what it held at entry. -/
theorem proj_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same two facts at the accumulating region's exit. -/
theorem acc_arr (c : Dev nD) (w : Fin cfg1.W) : (dat1 (V2 m) c).arrAt w cfg1.N = V3 m c (Pipeline.arrRef spec1 w) :=
  (W3_arr m c w).symm
theorem acc_rest (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data of both regions, and what rides beside the buffers -/

/-- Neither region has a prefetched table. -/
abbrev noTables : (p : Fin 2) → (pcfgs (F := F) p).Adm := fun p => (cfgs p).toPCfg_adm
/-- Each region's proof data at the contents the region is entered from: the projection after the three reshapes,
    the accumulation at the projection's exit. Written as a match on the index so that each case is its region's
    data on the nose. -/
def regionDat : (p : Fin 2) → (c : Dev nD) → Dat τ (Elt F) Unit ℕ (UR sig nD τ) ℕ (Pipeline.pin (pcfgs (F := F)) noTables p) c
  | ⟨0, _⟩ => fun c => dat0 (V1 m) c
  | ⟨1, _⟩ => fun c => dat1 (V2 m) c
abbrev noVariants : Variants := Variants.none
/-- No core waits on another: no pair is given a level. -/
abbrev noPairs : GSem nD τ sig → Finset Unit := fun _ => ∅
abbrev noLevels : GSem nD τ sig → Unit → ℕ := fun _ _ => 0
/-- Beside the buffers, through every item: the core's generator register at some state, and the core owing nothing. -/
abbrev beside (c : Dev nD) : sProp 𝕄 := iprop((∃ r, prngReg c r) ∗ ∃ W, owes (c : Thread nD τ) (0 : CellTallies nD τ sig Unit) W)
/-- A stretch of host operations as an item: from every unscoped buffer at the contents W to the same buffers at what
    the operations compute from W. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- A reshape allocates nothing. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The last state without the debt: every unscoped buffer at the last boundary's contents, the generator register
    at some state. -/
abbrev lastState (c : Dev nD) : sProp 𝕄 :=
  iprop(StableHlo.held (c : Thread nD τ) (Pipeline.ucRefs τ sig) (W4 m c) ∗ ∃ r, prngReg c r)

/-! ## The two regions as items -/

set_option backward.isDefEq.respectTransparency.types false in
/-- The projection region: entered from every unscoped buffer after the three reshapes, left with its arrays at what
    its write-backs leave and every other buffer untouched. Its arrays are split out of the unscoped buffers at entry
    and put back at exit; the generator register goes into the invariant and comes out; nothing is owed. -/
def projItem : Pipeline.RegionSeg (pcfgs (F := F)) noTables (regionDat m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noPairs noLevels 0 fun _ _ => rfl
  pre c := iprop(StableHlo.held (c : Thread nD τ) (Pipeline.ucRefs τ sig) (W1 m c) ∗ beside c)
  post c := iprop(StableHlo.held (c : Thread nD τ) (Pipeline.ucRefs τ sig) (W2 m c) ∗ beside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) noTables (regionDat m) launch0.win launch0.arr_whole c
      ((regionDat m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDat m 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionDat m) ((regionDat m 0 c).share_full fun _ => rfl)
      (V1 m c) (V2 m c) ((regionDat m 0 c).arrAt · cfg0.N) (proj_arr m c) (proj_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating region: entered from the projection region's exit contents, left with its arrays at what its
    write-backs leave. At entry the class's invariant is assembled as for the projection and is then the region's own
    invariant before the first point; after the last point the region's invariant gives the class's back, which is
    taken apart as for the projection. -/
def accItem : Pipeline.RegionSeg (pcfgs (F := F)) noTables (regionDat m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ noPairs noLevels 1 fun _ _ => rfl
  pre c := iprop(StableHlo.held (c : Thread nD τ) (Pipeline.ucRefs τ sig) (W2 m c) ∗ beside c)
  post c := iprop(StableHlo.held (c : Thread nD τ) (Pipeline.ucRefs τ sig) (W3 m c) ∗ beside c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) noTables (regionDat m) launch1.win launch1.arr_whole c
      ((regionDat m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    refine (hout1 (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (regionDat m) ((regionDat m 1 c).share_full fun _ => rfl)
      (V2 m c) (V3 m c) ((regionDat m 1 c).arrAt · cfg1.N) (acc_arr m c) (acc_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items -/

/-- The four items in order: the three reshapes from the launch contents, the projection region, the accumulating
    region, the last reshape from the accumulating region's exit contents. -/
abbrev items : List (Pipeline.Seg (pcfgs (F := F)) noTables (regionDat m) () defs₀ noVariants noPairs noLevels) :=
  [ .host (hostItem hostOps0 hostOps0_sub hostOps0_fresh (W0 m)),
    .region (projItem m),
    .region (accItem m),
    .host (hostItem hostOps2 hostOps2_sub hostOps2_fresh (W3 m)) ]
/-- The program is the run of those items: it is the chain of their fragments, and the run of a list of items
    unfolds to that chain. -/
theorem main_is_items (c : Dev nD) : main (F := F) c = Pipeline.Seg.run (items m) := (main_chain c).trans (by chain_rfl)

/-! ## The run -/

set_option backward.isDefEq.respectTransparency.types false in
/-- Every weakly fair execution from memory m with zero counters terminates, and every final memory holds every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) noTables (regionDat m) () cellOf_inj emb₁ defs₀ noVariants noPairs noLevels m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := lastState m)
    (hch := ⟨fun _ => .rfl, fun _ => .rfl, fun _ => .rfl, fun _ => .rfl, fun c => show iprop(StableHlo.held (c : Thread nD τ) (Pipeline.ucRefs τ sig) (W4 m c) ∗ beside c)
        ⊢ iprop(lastState m c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach noPairs noLevels fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.Kernel.Run

end
-- ==== Proof.KernelIdeal.XaRegion.lean ====
/-
  The first kernel region: sixteen row blocks of 512 rows. At each block the body reads the block of activations, the
  whole down-projection and the whole rank scale, and stores the scaled projection of those 512 rows whole into its
  output block. Stated here at any float instance: what the output's buffer holds after the body as a function of the
  three blocks read, the body's triple, the region's proof data (every array as the region finds it, every input's
  buffer at its block, the output's at the scaled projection of the blocks), and the obligation at every block.
-/
import proofs.«131417_j40355512714085_1_alg».proof.Proof.Gen.KernelIdeal.Launch
import proofs.«131417_j40355512714085_1_alg».proof.Proof.Gen.KernelIdeal.Skeleton
import proofs.«131417_j40355512714085_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: the parameter everything here is stated at
variable (V : (c : Dev nD) → (b : Ref sig .tc) → Buf (Elt F) ((c : Thread nD τ).loc b))

/-- Window w's block at row block t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev r0_x : Rect S512x4096 := Rect.unit (s := S512x4096) ![0, 0] S512x4096.size inb_S512x4096_S512x4096_0_0
abbrev r0_a : Rect S256x4096 := Rect.unit (s := S256x4096) ![0, 0] S256x4096.size inb_S256x4096_S256x4096_0_0
abbrev r0_d : Rect S1x256 := Rect.unit (s := S1x256) ![0, 0] S1x256.size inb_S1x256_S1x256_0_0
abbrev r0_o : Rect S512x256 := Rect.unit (s := S512x256) ![0, 0] S512x256.size inb_S512x256_S512x256_0_0

/-- What the body leaves in the output's buffer: its one store, of the scaled projection of the three blocks read. -/
def xaOut (x0 : Vec F S512x4096 .f32) (x1 : Vec F S256x4096 .f32) (x2 : Vec F S1x256 .f32) : Vec F S512x256 .f32 :=
  View.canon [⟨r0_o, k0_pay1 (View.ld x0 r0_x) (View.ld x1 r0_a) (View.ld x2 r0_d)⟩]

/-- The region's proof data on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => xaOut (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = xaOut (iblk0 V c 0 t) (iblk0 V c 1 t) (iblk0 V c 2 t) := by dsimp only [dat0]

/-- The activations' current buffer holds the row block's activations at every block: fetched there each time. -/
private theorem before_x (c : Dev nD) (t : Fin cfg0.N) (d) : (dat0 V c).before 0 t d = iblk0 V c 0 t :=
  ((dat0 V c).before_in_eq_fetched 0 rfl (fun _ => rfl) (fun _ _ _ => rfl)
    (fun t => by rw [after0_0 V c t]; unfold Dat.blockOf iblk0; rw [A_eq0 V c 0]; try rfl) t d).trans
    (by unfold Dat.fetched Dat.blockOf iblk0; rw [A_eq0 V c 0]; try rfl)

/-- The down-projection's buffer holds the whole down-projection at every block: fetched at the first block only,
    and its block index never moves afterwards. -/
private theorem before_a (c : Dev nD) (t : Fin cfg0.N) (d) : (dat0 V c).before 1 t d = iblk0 V c 1 t :=
  ((dat0 V c).before_in_eq_fetched 1 rfl (fun _ => rfl) (fun _ _ _ => rfl)
    (fun t => by rw [after0_1 V c t]; unfold Dat.blockOf iblk0; rw [A_eq0 V c 1]; try rfl) t d).trans
    (by unfold Dat.fetched Dat.blockOf iblk0; rw [A_eq0 V c 1]; try rfl)

/-- The same of the rank scale's buffer. -/
private theorem before_d (c : Dev nD) (t : Fin cfg0.N) (d) : (dat0 V c).before 2 t d = iblk0 V c 2 t :=
  ((dat0 V c).before_in_eq_fetched 2 rfl (fun _ => rfl) (fun _ _ _ => rfl)
    (fun t => by rw [after0_2 V c t]; unfold Dat.blockOf iblk0; rw [A_eq0 V c 2]; try rfl) t d).trans
    (by unfold Dat.fetched Dat.blockOf iblk0; rw [A_eq0 V c 2]; try rfl)

/-- The one store is of the whole output block, so every index of the block is under it. -/
private theorem cover_o (p : Vec F S512x256 .f32) (y : S512x256.Idx) :
    ∃ pc ∈ ([⟨r0_o, p⟩] : List (View.Piece (Elt F) S512x256 .f32)), y ∈ pc.1.set :=
  View.cover_of_tiled [⟨r0_o, p⟩] S512x256.size (by rfl) y

set_option maxHeartbeats 1000000 in
/-- The body on whole buffers: the three inputs read x0, x1, x2 and come back unchanged; the output's buffer, whatever
    it held, comes back holding the scaled projection xaOut x0 x1 x2. -/
private theorem sound_kernel0 (c : Dev nD) (E : Set ℕ) (i : grid0.Coords)
    (arg1 : Memref sig .tc .vmem S512x4096 .f32) (harg1 : arg1.IsWhole)
    (arg2 : Memref sig .tc .vmem S256x4096 .f32) (harg2 : arg2.IsWhole)
    (arg3 : Memref sig .tc .vmem S1x256 .f32) (harg3 : arg3.IsWhole)
    (arg4 : Memref sig .tc .vmem S512x256 .f32) (harg4 : arg4.IsWhole)
    (x0 : Vec F S512x4096 .f32) (x1 : Vec F S256x4096 .f32) (x2 : Vec F S1x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (xaOut x0 x1 x2)) -∗ K ⟨⟩))
      ⊢ wp frame (wpE (defs₀ (F := F)) Variants.none c none) E (cc0__xa_kernel i arg1 harg1 arg2 harg2 arg3 harg3 arg4 harg4) K := by
  simp only [cc0__xa_kernel_eq_skeleton]; unfold cc0__xa_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_o _)

/-- What the body is handed at row block t: the invariant, the core's debts, and each window's current buffer. -/
private def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
private def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any row block: its inputs' buffers hold their blocks, so the triple on whole buffers applies; the
    invariant and the debts are not touched. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before_x, before_a, before_d]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every row block. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.KernelIdeal.AccCases.lean ====
/-
  The second kernel region, what its three cases share. Its grid is 8 row blocks by 4 column blocks by 4 blocks of
  the contracted columns, the last axis innermost, so point t is at contracted block t mod 4. The body keeps an
  accumulator in a scratch buffer across the four points of one output block: at contracted block 0 it resets the
  accumulator to the correction (the low-rank term plus the bias), at every point it adds that block's part of the base
  contraction, and at contracted block 3 it copies the accumulator into the output block, which is written back only
  there. So the grid's points fall into three cases by t mod 4: 0 (reset and add), 1 or 2 (add), 3 (add and copy out).
  Here: each window's block at a point; that each input's staging buffer holds its block at every point, fetched there
  or not; the two branch conditions decided over the 128 points; where the output window is idle; the staging and
  scratch memrefs by name; and the region's class invariant with the scratch singled out.
-/
import proofs.«131417_j40355512714085_1_alg».proof.Proof.Gen.KernelIdeal.Launch
import proofs.«131417_j40355512714085_1_alg».proof.Proof.Gen.KernelIdeal.Skeleton
import proofs.«131417_j40355512714085_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point: where it is not fetched its block
    index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The two branches, over the grid -/

/-- "This is the first block of contracted columns." -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last block of contracted columns." -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At the first contracted block the body stores nothing into the output window, and it is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- The same at the two middle blocks. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At the last contracted block the body stores into the output window. -/
theorem liveAt1_5_C : ∀ t : Fin cfg1.N, ¬cond1_0 (grid1.coords t) → cond1_1 (grid1.coords t) → cfg1.idle 5 (grid1.coords t) = false := by decide +kernel

/-! ## The memrefs by name -/

/-- One staging buffer of the output window, through which its contents are stated. -/
abbrev VO1_5 : View sig .tc .vmem S1024x1024 .f32 := (Memref.whole cc1_stg5_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S1024x1024 .f32 := Memref.whole cc1_scratch0
abbrev VS1_0 : View sig .tc .vmem S1024x1024 .f32 := scM1_0.view

/-- The region's class invariant with the accumulator singled out as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Run

end
-- ==== Proof.KernelIdeal.AccRunFirst.lean ====
/-
  The accumulating kernel's body at the FIRST block of contracted columns (t mod 4 = 0): it stores the correction
  (the low-rank term plus the bias, from the projection block, the up-projection block and the bias block) into the
  accumulator, reads it back, adds this block's part of the base contraction and stores the sum. The output buffer is
  not touched. Stated on whole memrefs at any contents of the five inputs, the accumulator at anything on entry;
  the pieces the accumulator ends with are what the run finds.
-/
import proofs.«131417_j40355512714085_1_alg».proof.Proof.KernelIdeal.AccCases

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 x1 : Vec F S1024x1024 .f32) (x2 x3 : Vec F S1024x256 .f32) (x4 : Vec F S1x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Run

end
-- ==== Proof.KernelIdeal.AccRunMid.lean ====
/-
  The accumulating kernel's body at a MIDDLE block of contracted columns (t mod 4 = 1 or 2): it reads the
  accumulator as the point before left it, adds this block's part of the base contraction and stores the sum. Stated
  on whole memrefs at any contents of the two blocks read and of the accumulator on entry; the pieces the accumulator
  ends with are what the run finds.
-/
import proofs.«131417_j40355512714085_1_alg».proof.Proof.KernelIdeal.AccRunFirst

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 x1 : Vec F S1024x1024 .f32) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg9 fullShare xs0
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Run

end
-- ==== Proof.KernelIdeal.AccRunLast.lean ====
/-
  The accumulating kernel's body at the LAST block of contracted columns (t mod 4 = 3): it reads the accumulator as
  the point before left it, adds this block's part of the base contraction, stores the sum, reads it back and stores
  it whole into the output block. Stated on whole memrefs at any contents of the two blocks read and of the
  accumulator on entry, the output buffer at anything; the pieces the output buffer and the accumulator end with are
  what the run finds.
-/
import proofs.«131417_j40355512714085_1_alg».proof.Proof.KernelIdeal.AccRunMid

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 x1 : Vec F S1024x1024 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%d5, %f5, -, H5⟩, ⟨%fs0, %hfs0, HS0⟩, Hk⟩
    obtain rfl := harg3.eq_unread hf0; obtain rfl := harg4.eq_unread hf1; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H5]; · iexists _; iexact H5
    iexists _; iexact HS0

end Cert.KernelIdeal.Run

end
-- ==== Proof.KernelIdeal.AccRegion.lean ====
/-
  The second kernel region as a whole. What the accumulator holds after each point is defined by recursion on the
  point: at a point with t mod 4 = 0 it is what the reset-and-add case leaves from that point's five blocks; at any
  other point it is what the add case leaves from that point's two blocks over what the point before left. The output
  block's buffer holds the accumulator's contents at the points with t mod 4 = 3 and is idle elsewhere. The region's
  invariant before a point carries the accumulator at what the point before left (before the first point, at
  anything), and the region's other scoped buffers at anything. With these as proof data the body meets its
  obligation at every point, by cases on t mod 4.
-/
import proofs.«131417_j40355512714085_1_alg».proof.Proof.KernelIdeal.AccRunLast

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from the pieces its run found -/

/-- The reset-and-add case's stores cover the accumulator. -/
theorem scover1_A_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 x1 : Vec F S1024x1024 .f32) (x2 x3 : Vec F S1024x256 .f32) (x4 : Vec F S1x1024 .f32) (y : S1024x1024.Idx) :
    ∃ pc ∈ (kernelRun1_A c i arg3 harg3 arg4 harg4 arg5 harg5 arg6 harg6 arg7 harg7 arg8 harg8 arg9 harg9 hc0 hc1 x0 x1 x2 x3 x4).1, y ∈ pc.1.set :=
  View.cover_of_tiledL (kernelRun1_A c i arg3 harg3 arg4 harg4 arg5 harg5 arg6 harg6 arg7 harg7 arg8 harg8 arg9 harg9 hc0 hc1 x0 x1 x2 x3 x4).1 S1024x1024.size (by sl_kernel_rfl) y
/-- What it leaves in the accumulator. -/
def sout1_A_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 x1 : Vec F S1024x1024 .f32) (x2 x3 : Vec F S1024x256 .f32) (x4 : Vec F S1x1024 .f32) : Vec F S1024x1024 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).1)

/-- The add case's store covers the accumulator. -/
theorem scover1_B_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 x1 : Vec F S1024x1024 .f32) (xs0 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 xs0).1, y ∈ pc.1.set :=
  View.cover_of_tiledL (kernelRun1_B c i arg3 harg3 arg4 harg4 arg5 harg5 arg6 harg6 arg7 harg7 arg8 harg8 arg9 harg9 hc0 hc1 x0 x1 xs0).1 S1024x1024.size (by sl_kernel_rfl) y
/-- What it leaves in the accumulator. -/
def sout1_B_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 x1 : Vec F S1024x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 xs0).1)

/-- The add-and-copy-out case's store into the output block covers it, -/
theorem cover1_C_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 x1 : Vec F S1024x1024 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 xs0).1, y ∈ pc.1.set :=
  View.cover_of_tiledL (kernelRun1_C c i arg3 harg3 arg4 harg4 arg5 harg5 arg6 harg6 arg7 harg7 arg8 harg8 arg9 harg9 hc0 hc1 x0 x1 xs0).1 S1024x1024.size (by sl_kernel_rfl) y
/-- what it leaves in the output block's buffer, -/
def out1_C_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 x1 : Vec F S1024x1024 .f32) (xs0 : Vec F S1024x1024 .f32) : Vec F S1024x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 xs0).1)
/-- its store into the accumulator covers it, -/
theorem scover1_C_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 x1 : Vec F S1024x1024 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 xs0).2.1, y ∈ pc.1.set :=
  View.cover_of_tiledL (kernelRun1_C c i arg3 harg3 arg4 harg4 arg5 harg5 arg6 harg6 arg7 harg7 arg8 harg8 arg9 harg9 hc0 hc1 x0 x1 xs0).2.1 S1024x1024.size (by sl_kernel_rfl) y
/-- and what it leaves in the accumulator. -/
def sout1_C_0 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 x1 : Vec F S1024x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 xs0).2.1)

/-- Where the output window is idle its buffer's contents are never consulted: a placeholder. -/
def outIdle : Vec F S1024x1024 .f32 := VO1_5.read (Elt F) (VO1_5.writes (Elt F) VO1_5.junk [])

/-! ## Point by point -/

/-- What the output block's buffer (first component) and the accumulator (second) hold after the body at point n. -/
def outsAt1 (c : Dev nD) : (n : ℕ) → n < cfg1.N → Vec F S1024x1024 .f32 × Vec F S1024x1024 .f32
  | 0, hn => (outIdle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (outIdle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (outIdle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point with t mod 4 = 0: the reset-and-add case's contents. -/
theorem outsAt1_A (c : Dev nD) (t : Fin cfg1.N) (h0 : t.val % 4 = 0) (h1 : ¬t.val % 4 = 3) :
    outsAt1 V c t.val t.isLt = (outIdle, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- At a point with t mod 4 = 1 or 2: the add case's contents over what the point before left. -/
theorem outsAt1_B (c : Dev nD) (t : Fin cfg1.N) (h0 : ¬t.val % 4 = 0) (h1 : ¬t.val % 4 = 3) :
    outsAt1 V c t.val t.isLt = (outIdle, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with t mod 4 = 3: the add-and-copy-out case's contents over what the point before left. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the class's (the accumulator at anything);
    afterwards the other scoped buffers at anything, the accumulator at what the point before left, and the
    generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's obligation -/

/-- What the body is handed at point t: the invariant before it, what the core owes, and the six windows' current
    buffers one by one, each at what it holds on entry. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it must give back: the invariant before the next point, what the core owes, and each window's buffer at
    what the body leaves in it. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- At a point with t mod 4 = 0 the body resets the accumulator and adds: it needs the five input blocks and the
    accumulator at anything (which is all the invariant knows of it before the very first point, and more than
    enough afterwards); the output window is idle and goes back as it came. -/
theorem sound_body1_A (c : Dev nD) (t : Fin cfg1.N) (h0 : t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
  rw [outsAt1_A V c t h0 h1]
  unfold sout1_A_0; (try dsimp only)
  by_cases hz : t.val = 0
  · rw [PhiS_castSucc V c t, PhiS_zero V c _ _ hz, PhiA1_eq]
    iintro ⟨⟨⟨Ho1, Ho2, Ho3, Ho4, Ho5, Ho6, HS0⟩, Hg⟩, Ho, ⟨%d0, H0⟩, ⟨%d1, H1⟩, ⟨%d2, H2⟩, ⟨%d3, H3⟩, ⟨%d4, H4⟩, H5⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [Ho1 Ho2 Ho3 Ho4 Ho5 Ho6 HS0 Hg]
    · isplitl [Ho1 Ho2 Ho3 Ho4 Ho5 Ho6 HS0]
      · isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        unfold owns; iexists _; isplitr
        swap; · iexact HS0
        ipureintro; exact View.read_writes_of_cover _ _ _ _ _ (scover1_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_castSucc V c t, PhiS_pos V c _ _ hz]
    iintro ⟨⟨⟨Ho1, Ho2, Ho3, Ho4, Ho5, Ho6, HS0⟩, Hg⟩, Ho, ⟨%d0, H0⟩, ⟨%d1, H1⟩, ⟨%d2, H2⟩, ⟨%d3, H3⟩, ⟨%d4, H4⟩, H5⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
    isplitl [H0]; · iexact H0
    isplitl [H1]; · iexact H1
    isplitl [H2]; · iexact H2
    isplitl [H3]; · iexact H3
    isplitl [H4]; · iexact H4
    isplitl [HS0]; · iexists _; iexact HS0
    iintro ⟨H0, H1, H2, H3, H4, ⟨%es0, HS0⟩⟩
    isplitl [Ho1 Ho2 Ho3 Ho4 Ho5 Ho6 HS0 Hg]
    · isplitl [Ho1 Ho2 Ho3 Ho4 Ho5 Ho6 HS0]
      · isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        unfold owns; iexists _; isplitr
        swap; · iexact HS0
        ipureintro; exact View.read_writes_of_cover _ _ _ _ _ (scover1_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexact H5

set_option maxHeartbeats 4800000 in
/-- At a point with t mod 4 = 1 or 2 the body adds to the accumulator: it needs the first two input blocks and the
    accumulator at exactly what the point before left; the other three inputs and the idle output window go back
    as they came. -/
theorem sound_body1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
  rw [outsAt1_B V c t h0 h1]
  unfold sout1_B_0; (try dsimp only)
  have hz : t.val ≠ 0 := fun h => h0 (by rw [h])
  rw [PhiS_castSucc V c t, PhiS_pos V c _ _ hz]
  iintro ⟨⟨⟨Ho1, Ho2, Ho3, Ho4, Ho5, Ho6, HS0⟩, Hg⟩, Ho, ⟨%d0, H0⟩, ⟨%d1, H1⟩, ⟨%d2, H2⟩, ⟨%d3, H3⟩, ⟨%d4, H4⟩, H5⟩
  iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2).2 Set.univ _)
  isplitl [H0]; · iexact H0
  isplitl [H1]; · iexact H1
  isplitl [HS0]; · iexact HS0
  iintro ⟨H0, H1, ⟨%es0, HS0⟩⟩
  isplitl [Ho1 Ho2 Ho3 Ho4 Ho5 Ho6 HS0 Hg]
  · isplitl [Ho1 Ho2 Ho3 Ho4 Ho5 Ho6 HS0]
    · isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      unfold owns; iexists _; isplitr
      swap; · iexact HS0
      ipureintro; exact View.read_writes_of_cover _ _ _ _ _ (scover1_B_0 c _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4800000 in
/-- At a point with t mod 4 = 3 the body adds to the accumulator and copies it out: it needs the first two input
    blocks, the accumulator at exactly what the point before left, and the output block's buffer at anything; both
    the accumulator and the output buffer come back covered by its stores. -/
theorem sound_body1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5_C t (fun h => h0 ((hcond1_0 t).mp h)) ((hcond1_1 t).mpr h1)], after1_5]
  rw [outsAt1_C V c t h0 h1]
  unfold out1_C_5 sout1_C_0; (try dsimp only)
  have hz : t.val ≠ 0 := fun h => h0 (by rw [h])
  rw [PhiS_castSucc V c t, PhiS_pos V c _ _ hz]
  iintro ⟨⟨⟨Ho1, Ho2, Ho3, Ho4, Ho5, Ho6, HS0⟩, Hg⟩, Ho, ⟨%d0, H0⟩, ⟨%d1, H1⟩, ⟨%d2, H2⟩, ⟨%d3, H3⟩, ⟨%d4, H4⟩, ⟨%d5, H5⟩⟩
  iapply ((kernelRun1_C c (grid1.coords t) _ _ _ _ _ _ _ _ _ _ _ _ _ _ (fun h => h0 ((hcond1_0 t).mp h)) ((hcond1_1 t).mpr h1) (iblk1 V c 0 t) (iblk1 V c 1 t) (outsAt1 V c (t.val - 1) (Nat.lt_of_le_of_lt (Nat.sub_le _ _) t.isLt)).2).2.2 Set.univ _)
  isplitl [H0]; · iexact H0
  isplitl [H1]; · iexact H1
  isplitl [H5]; · iexists _; iexact H5
  isplitl [HS0]; · iexact HS0
  iintro ⟨H0, H1, ⟨%e5, H5⟩, ⟨%es0, HS0⟩⟩
  isplitl [Ho1 Ho2 Ho3 Ho4 Ho5 Ho6 HS0 Hg]
  · isplitl [Ho1 Ho2 Ho3 Ho4 Ho5 Ho6 HS0]
    · isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      unfold owns; iexists _; isplitr
      swap; · iexact HS0
      ipureintro; exact View.read_writes_of_cover _ _ _ _ _ (scover1_C_0 c _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_C_5 c _ _ _ _ _ _ _ _ _ _ _ _ _ _ _ _ _ _ _ _)

/-- The body at any point, by the three cases of t mod 4. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · by_cases h1 : t.val % 4 = 3
    · exfalso; omega
    · exact sound_body1_A V c t h0 h1
  · by_cases h1 : t.val % 4 = 3
    · exact sound_body1_C V c t h0 h1
    · exact sound_body1_B V c t h0 h1

/-- The body's obligation at every point of the 8 × 4 × 4 grid. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After any point but the first the invariant gives the class's back: what the accumulator holds is forgotten,
    the other buffers and the generator register pass through. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ho1, Ho2, Ho3, Ho4, Ho5, Ho6, HS0⟩, Hg⟩
  isplitl [Ho1 Ho2 Ho3 Ho4 Ho5 Ho6 HS0]
  · isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexists _; iexact HS0
  iexact Hg

/-- After the last point the invariant gives the class's back: the accumulator's named contents are forgotten. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Run

end
-- ==== Proof.KernelIdeal.MainRun.lean ====
/-
  The whole program as a run: three reshapes (the activations flattened to 8192 rows, the rank scale and the bias as
  rows), the projection region, the accumulating region, and the reshape of the 8192-row result back to batch by
  sequence. The buffer contents at each boundary are a fold from the launch memory: after a stretch of host
  operations what those operations compute; after a region its arrays at what its write-backs leave and every other
  buffer as it was. Every weakly fair execution terminates with every unscoped buffer at the last boundary's
  contents; no item writes an argument, so each argument ends as launched.
-/
import proofs.«131417_j40355512714085_1_alg».proof.Proof.KernelIdeal.XaRegion
import proofs.«131417_j40355512714085_1_alg».proof.Proof.KernelIdeal.AccRegion

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- After the three reshapes (the projection region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit (the accumulating region's entry: no host operation stands between them). -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- At the accumulating region's exit. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the last reshape. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-! ## No item writes an argument -/

/-- The three reshapes write only their three results: any other buffer is as at launch. -/
private theorem W1_of_ne (c : Dev nD) (b : Ref sig .tc) (h0 : main_v0 ≠ b) (h1 : main_v1 ≠ b) (h2 : main_v2 ≠ b) :
    W1 m c (Proc.devRef .tc b) = W0 m c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    exact ⟨StableHlo.devRef_ne_of_ne (Ne.symm h0), StableHlo.devRef_ne_of_ne (Ne.symm h1), StableHlo.devRef_ne_of_ne (Ne.symm h2)⟩))

/-- The last reshape writes only its result. -/
private theorem W4_of_ne (c : Dev nD) (b : Ref sig .tc) (h : main_v5 ≠ b) :
    W4 m c (Proc.devRef .tc b) = W3 m c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    exact StableHlo.devRef_ne_of_ne (Ne.symm h)))

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := W1_of_ne m c main_arg0 (by decide) (by decide) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) :=
        (W3_arr m c 1).trans (((dat1 (V2 m) c).arrAt_in 1 rfl _).trans (A_eq1 (V2 m) c 1))
    _ = W1 m c (Proc.devRef .tc main_arg1) := W2_of_ne m c main_arg1 (by decide)
    _ = W0 m c (Proc.devRef .tc main_arg1) := W1_of_ne m c main_arg1 (by decide) (by decide) (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) :=
        (W2_arr m c 1).trans (((dat0 (V1 m) c).arrAt_in 1 rfl _).trans (A_eq0 (V1 m) c 1))
    _ = W0 m c (Proc.devRef .tc main_arg2) := W1_of_ne m c main_arg2 (by decide) (by decide) (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) :=
        (W3_arr m c 3).trans (((dat1 (V2 m) c).arrAt_in 3 rfl _).trans (A_eq1 (V2 m) c 3))
    _ = W1 m c (Proc.devRef .tc main_arg3) := W2_of_ne m c main_arg3 (by decide)
    _ = W0 m c (Proc.devRef .tc main_arg3) := W1_of_ne m c main_arg3 (by decide) (by decide) (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_of_ne m c main_arg4 (by decide) (by decide) (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of_ne m c main_arg5 (by decide) (by decide) (by decide)
    _ = m ((c : Thread nD τ).loc main_arg5) := rfl

/-! ## What each region leaves, as the hypotheses of putting its arrays back among the unscoped buffers -/

/-- At the projection region's exit each of its arrays holds what the pipeline leaves, -/
theorem proj_arr (c : Dev nD) (w : Fin cfg0.W) : (dat0 (V1 m) c).arrAt w cfg0.N = V2 m c (Pipeline.arrRef spec0 w) :=
  (W2_arr m c w).symm
/-- and any buffer that is none of its arrays what it held at entry. -/
theorem proj_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The same two facts at the accumulating region's exit. -/
theorem acc_arr (c : Dev nD) (w : Fin cfg1.W) : (dat1 (V2 m) c).arrAt w cfg1.N = V3 m c (Pipeline.arrRef spec1 w) :=
  (W3_arr m c w).symm
theorem acc_rest (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data of both regions, and what rides beside the buffers -/

/-- Neither region has a prefetched table. -/
abbrev noTables : (p : Fin 2) → (pcfgs (F := F) p).Adm := fun p => (cfgs p).toPCfg_adm
/-- Each region's proof data at the contents the region is entered from: the projection after the three reshapes,
    the accumulation at the projection's exit. Written as a match on the index so that each case is its region's
    data on the nose. -/
def regionDat : (p : Fin 2) → (c : Dev nD) → Dat τ (Elt F) Unit ℕ (UR sig nD τ) ℕ (Pipeline.pin (pcfgs (F := F)) noTables p) c
  | ⟨0, _⟩ => fun c => dat0 (V1 m) c
  | ⟨1, _⟩ => fun c => dat1 (V2 m) c
abbrev noVariants : Variants := Variants.none
/-- No core waits on another: no pair is given a level. -/
abbrev noPairs : GSem nD τ sig → Finset Unit := fun _ => ∅
abbrev noLevels : GSem nD τ sig → Unit → ℕ := fun _ _ => 0
/-- Beside the buffers, through every item: the core's generator register at some state, and the core owing nothing. -/
abbrev beside (c : Dev nD) : sProp 𝕄 := iprop((∃ r, prngReg c r) ∗ ∃ W, owes (c : Thread nD τ) (0 : CellTallies nD τ sig Unit) W)
/-- A stretch of host operations as an item: from every unscoped buffer at the contents W to the same buffers at what
    the operations compute from W. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- A reshape allocates nothing. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The last state without the debt: every unscoped buffer at the last boundary's contents, the generator register
    at some state. -/
abbrev lastState (c : Dev nD) : sProp 𝕄 :=
  iprop(StableHlo.held (c : Thread nD τ) (Pipeline.ucRefs τ sig) (W4 m c) ∗ ∃ r, prngReg c r)

/-! ## The two regions as items -/

set_option backward.isDefEq.respectTransparency.types false in
/-- The projection region: entered from every unscoped buffer after the three reshapes, left with its arrays at what
    its write-backs leave and every other buffer untouched. Its arrays are split out of the unscoped buffers at entry
    and put back at exit; the generator register goes into the invariant and comes out; nothing is owed. -/
def projItem : Pipeline.RegionSeg (pcfgs (F := F)) noTables (regionDat m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noPairs noLevels 0 fun _ _ => rfl
  pre c := iprop(StableHlo.held (c : Thread nD τ) (Pipeline.ucRefs τ sig) (W1 m c) ∗ beside c)
  post c := iprop(StableHlo.held (c : Thread nD τ) (Pipeline.ucRefs τ sig) (W2 m c) ∗ beside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) noTables (regionDat m) launch0.win launch0.arr_whole c
      ((regionDat m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDat m 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionDat m) ((regionDat m 0 c).share_full fun _ => rfl)
      (V1 m c) (V2 m c) ((regionDat m 0 c).arrAt · cfg0.N) (proj_arr m c) (proj_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The accumulating region: entered from the projection region's exit contents, left with its arrays at what its
    write-backs leave. At entry the class's invariant is assembled as for the projection and is then the region's own
    invariant before the first point; after the last point the region's invariant gives the class's back, which is
    taken apart as for the projection. -/
def accItem : Pipeline.RegionSeg (pcfgs (F := F)) noTables (regionDat m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ noPairs noLevels 1 fun _ _ => rfl
  pre c := iprop(StableHlo.held (c : Thread nD τ) (Pipeline.ucRefs τ sig) (W2 m c) ∗ beside c)
  post c := iprop(StableHlo.held (c : Thread nD τ) (Pipeline.ucRefs τ sig) (W3 m c) ∗ beside c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) noTables (regionDat m) launch1.win launch1.arr_whole c
      ((regionDat m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    refine (hout1 (V2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (regionDat m) ((regionDat m 1 c).share_full fun _ => rfl)
      (V2 m c) (V3 m c) ((regionDat m 1 c).arrAt · cfg1.N) (acc_arr m c) (acc_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items -/

/-- The four items in order: the three reshapes from the launch contents, the projection region, the accumulating
    region, the last reshape from the accumulating region's exit contents. -/
abbrev items : List (Pipeline.Seg (pcfgs (F := F)) noTables (regionDat m) () defs₀ noVariants noPairs noLevels) :=
  [ .host (hostItem hostOps0 hostOps0_sub hostOps0_fresh (W0 m)),
    .region (projItem m),
    .region (accItem m),
    .host (hostItem hostOps2 hostOps2_sub hostOps2_fresh (W3 m)) ]
/-- The program is the run of those items: it is the chain of their fragments, and the run of a list of items
    unfolds to that chain. -/
theorem main_is_items (c : Dev nD) : main (F := F) c = Pipeline.Seg.run (items m) := (main_chain c).trans (by chain_rfl)

/-! ## The run -/

set_option backward.isDefEq.respectTransparency.types false in
/-- Every weakly fair execution from memory m with zero counters terminates, and every final memory holds every
    unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) noTables (regionDat m) () cellOf_inj emb₁ defs₀ noVariants noPairs noLevels m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := lastState m)
    (hch := ⟨fun _ => .rfl, fun _ => .rfl, fun _ => .rfl, fun _ => .rfl, fun c => show iprop(StableHlo.held (c : Thread nD τ) (Pipeline.ucRefs τ sig) (W4 m c) ∗ beside c)
        ⊢ iprop(lastState m c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach noPairs noLevels fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.KernelIdeal.Run

end
-- ==== Proof.PayloadAt.lean ====
/-
  The three values the kernels store, read at one entry on the extended reals (the casts to the narrower format are
  the identity there, and a product into a zero accumulator is the plain sum over the contracted column):
  the scaled projection  (Σ_k x[p,k]·A[r,k])·d[r];  the correction  Σ_r xa[p,r]·B[q,r] + bias[q];  and one
  accumulation step  acc[p,q] + Σ_k x[p,k]·W[q,k].
-/
import proofs.«131417_j40355512714085_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayloadAt

open Cert.KernelIdeal Cert.KernelIdeal.Gen
open Idealize.ShloMosaic Idealize.ShloMosaic.ValueIdx

variable [Cert.KernelIdeal.Facts]

/-! ### Where the projection's product reads its operands

Both factors are contracted along their SECOND axis (x against A, row against row). At output entry (p, r) and
contraction position k the left factor is therefore read at (p, k) and the right factor at (r, k): the right factor's
first axis carries the output's second coordinate. The four lemmas say this one coordinate at a time, as equalities
of naturals. -/

private theorem lhs_k0_0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
private theorem lhs_k0_1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
private theorem rhs_k0_0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
private theorem rhs_k0_1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- The scaled projection's block at row p, rank coordinate r. -/
theorem proj_at (v0 : Vec Ideal S512x4096 .f32) (v3 : Vec Ideal S256x4096 .f32) (v6 : Vec Ideal S1x256 .f32)
    (p : Fin 512) (r : Fin 256) :
    k0_pay1 (F := Ideal) v0 v3 v6 (ix2 p r)
      = (∑ k : Fin 4096, v0 (ix2 p k) * v3 (ix2 r k)) * v6 (ix2 (0 : Fin 1) r) := by
  unfold k0_pay1
  -- a cast of a shape to itself changes nothing; the product is entrywise; the one row of scales is read at column r
  rw [shapeCast_self v0, shapeCast_self v6]
  refine (mulf_apply _ _ (ix2 p r)).trans ?_
  rw [broadcastTo_1b_ab_apply v6 _ p r]
  refine congrArg (· * v6 (ix2 (0 : Fin 1) r)) ?_
  -- into a zero accumulator the product is the bare sum over the contraction index; name that index by its one
  -- coordinate k and read off where each factor is evaluated
  refine (Ideal.matmul_constant_zero_apply dot_S512x4096_S256x4096_S512x256_1_1_0_0_n_n none _ _ (ix2 p r)).trans ?_
  rw [← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p r) ((contrEquiv1 dot_S512x4096_S256x4096_S512x256_1_1_0_0_n_n 4096 rfl rfl).symm k) = ix2 p k := funext fun a => Fin.ext (by
    match a with
    | ⟨0, _⟩ => exact lhs_k0_0 _ _
    | ⟨1, _⟩ => exact (lhs_k0_1 _ _).trans hk)
  have er : dot_S512x4096_S256x4096_S512x256_1_1_0_0_n_n.rhsIdx (ix2 p r) ((contrEquiv1 dot_S512x4096_S256x4096_S512x256_1_1_0_0_n_n 4096 rfl rfl).symm k) = ix2 r k := funext fun a => Fin.ext (by
    match a with
    | ⟨0, _⟩ => exact rhs_k0_0 _ _
    | ⟨1, _⟩ => exact (rhs_k0_1 _ _).trans hk)
  rw [el, er]
  -- what is left is the narrowing of each factor, the identity on the extended reals
  rfl

/-! ### Where the correction's product reads its operands

The same pattern over the rank axis: at output entry (p, q) and contraction position r the left factor is read at
(p, r) and the right factor at (q, r). -/

private theorem lhs_k1a_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
private theorem lhs_k1a_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
private theorem rhs_k1a_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
private theorem rhs_k1a_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The correction's block at row p, output column q: the projection taken back up, plus the bias. -/
theorem corr_at (v17 : Vec Ideal S1024x256 .f32) (v19 : Vec Ideal S1024x256 .f32) (v21 : Vec Ideal S1x1024 .f32)
    (p q : Fin 1024) :
    k1_pay1 (F := Ideal) v17 v19 v21 (ix2 p q)
      = (∑ r : Fin 256, v17 (ix2 p r) * v19 (ix2 q r)) + v21 (ix2 (0 : Fin 1) q) := by
  unfold k1_pay1
  -- three casts of a shape to itself drop out; the sum is entrywise; the one row of biases is read at column q
  rw [shapeCast_self v17, shapeCast_self v21, shapeCast_self]
  refine (addf_apply _ _ (ix2 p q)).trans ?_
  rw [broadcastTo_1b_ab_apply v21 _ p q]
  refine congrArg (· + v21 (ix2 (0 : Fin 1) q)) ?_
  -- the product into a zero accumulator is the bare sum; reindex it by the rank coordinate
  refine (Ideal.matmul_constant_zero_apply dot_S1024x256_S1024x256_S1024x1024_1_1_0_0_n_n none _ _ (ix2 p q)).trans ?_
  rw [← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact lhs_k1a_0 _ _
    | ⟨1, _⟩ => exact (lhs_k1a_1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact rhs_k1a_0 _ _
    | ⟨1, _⟩ => exact (rhs_k1a_1 _ _).trans hk)
  rw [el, er]

/-! ### Where an accumulation step's product reads its operands

Again both factors are contracted along their second axis: at output entry (p, q) and position k inside the block of
columns, the left factor is read at (p, k) and the right factor at (q, k). -/

private theorem lhs_k1b_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
private theorem lhs_k1b_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
private theorem rhs_k1b_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
private theorem rhs_k1b_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- One accumulation step at row p, output column q: what was there plus this block of columns' contraction. -/
theorem step_at (v3 v6 v8 : Vec Ideal S1024x1024 .f32) (p q : Fin 1024) :
    k1_pay2 (F := Ideal) v3 v6 v8 (ix2 p q)
      = v8 (ix2 p q) + ∑ k : Fin 1024, v3 (ix2 p k) * v6 (ix2 q k) := by
  unfold k1_pay2
  -- the casts of a shape to itself drop out and the sum is entrywise: what was stored, plus the product
  rw [shapeCast_self v3, shapeCast_self]
  refine (addf_apply _ _ (ix2 p q)).trans ?_
  refine congrArg (v8 (ix2 p q) + ·) ?_
  -- the product itself still goes into a zero accumulator, so it is the bare sum over this block of columns
  refine (Ideal.matmul_constant_zero_apply dot_S1024x1024_S1024x1024_S1024x1024_1_1_0_0_n_n none _ _ (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_k1b_0 _ _
    | ⟨1, _⟩ => exact (lhs_k1b_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_k1b_0 _ _
    | ⟨1, _⟩ => exact (rhs_k1b_1 _ _).trans hk)
  rw [el, er]
  -- the narrowing of each factor is the identity on the extended reals
  rfl

end Cert.KernelIdeal.PayloadAt

end
-- ==== Proof.AdapterSpec.lean ====
/-
  The function both programs compute, entry by entry on the extended reals: a linear layer with a scaled low-rank
  correction,
      y[b,s,o] = Σ_k x[b,s,k]·W[o,k]  +  ( Σ_r ((Σ_k x[b,s,k]·A[r,k])·d[r])·B[o,r]  +  bias[o] ).
  `whole` groups it as one contraction over all 4096 columns plus the correction. `blocked` starts from the correction
  and adds the contraction in four consecutive blocks of 1024 columns, one after the other. The two agree because
  addition on the extended reals is commutative and associative: no product is distributed over a sum, so nothing
  here needs the entries to be finite.
-/
import Idealize.ShloMosaic.PureOps.Ideal
import Idealize.ShloMosaic.Lib.ValueIdx

noncomputable section

open scoped BigOperators

namespace Cert.AdapterSpec

open Idealize.ShloMosaic Idealize.ShloMosaic.ValueIdx

/-- The activations and the result: batch 4, sequence 2048, 4096 features. -/
abbrev SX : Shape := ⟨3, ![4, 2048, 4096]⟩
/-- The base weight, output feature by input feature. -/
abbrev SW : Shape := ⟨2, ![4096, 4096]⟩
/-- The down-projection, rank 256 by input feature. -/
abbrev SA : Shape := ⟨2, ![256, 4096]⟩
/-- The up-projection, output feature by rank. -/
abbrev SB : Shape := ⟨2, ![4096, 256]⟩
/-- The per-rank scale. -/
abbrev SD : Shape := ⟨1, ![256]⟩
/-- The bias, per output feature. -/
abbrev SBias : Shape := ⟨1, ![4096]⟩

variable (x : FVec Ideal SX .f32) (W : FVec Ideal SW .f32) (A : FVec Ideal SA .f32) (B : FVec Ideal SB .f32)
  (d : FVec Ideal SD .f32) (bias : FVec Ideal SBias .f32)

/-- Row (b,s) projected down to rank coordinate r and scaled: (Σ_k x[b,s,k]·A[r,k])·d[r]. -/
def proj (b : Fin 4) (s : Fin 2048) (r : Fin 256) : EReal :=
  (∑ k : Fin 4096, x (ix3 b s k) * A (ix2 r k)) * d (ix1 r)

/-- The correction at (b,s,o): the scaled projection taken back up through B, plus the bias. -/
def corr (b : Fin 4) (s : Fin 2048) (o : Fin 4096) : EReal :=
  (∑ r : Fin 256, proj x A d b s r * B (ix2 o r)) + bias (ix1 o)

/-- The base contraction at (b,s,o) over all 4096 columns. -/
def base (b : Fin 4) (s : Fin 2048) (o : Fin 4096) : EReal :=
  ∑ k : Fin 4096, x (ix3 b s k) * W (ix2 o k)

/-- The base contraction at (b,s,o) over the q-th block of 1024 consecutive columns. -/
def basePart (b : Fin 4) (s : Fin 2048) (o : Fin 4096) (q : Fin 4) : EReal :=
  ∑ k : Fin 1024, x (ix3 b s ⟨1024 * q.val + k.val, by omega⟩) * W (ix2 o ⟨1024 * q.val + k.val, by omega⟩)

/-- One full contraction plus the correction. -/
def whole : FVec Ideal SX .f32 := fun i =>
  base x W (i 0) (i 1) (i 2) + corr x A B d bias (i 0) (i 1) (i 2)

/-- The correction first, then the four column blocks added in order. -/
def blocked : FVec Ideal SX .f32 := fun i =>
  (((corr x A B d bias (i 0) (i 1) (i 2) + basePart x W (i 0) (i 1) (i 2) 0) + basePart x W (i 0) (i 1) (i 2) 1)
    + basePart x W (i 0) (i 1) (i 2) 2) + basePart x W (i 0) (i 1) (i 2) 3

/-- A sum over 4096 columns is the sum, over the four blocks, of the sums over the 1024 columns of each block:
column 1024·q + k is paired with (q, k), and that pairing is a bijection. -/
private theorem sum_by_blocks (f : Fin 4096 → EReal) :
    ∑ k : Fin 4096, f k = ∑ q : Fin 4, ∑ k : Fin 1024, f ⟨1024 * q.val + k.val, by omega⟩ := by
  rw [← Equiv.sum_comp (finProdFinEquiv (m := 4) (n := 1024)) f, Fintype.sum_prod_type]
  refine Finset.sum_congr rfl fun q _ => Finset.sum_congr rfl fun k _ => ?_
  congr 1
  apply Fin.ext
  show k.val + 1024 * q.val = 1024 * q.val + k.val
  omega

/-- The whole contraction is its four blocks added from the first to the last. -/
private theorem base_eq_parts (b : Fin 4) (s : Fin 2048) (o : Fin 4096) :
    base x W b s o
      = ((basePart x W b s o 0 + basePart x W b s o 1) + basePart x W b s o 2) + basePart x W b s o 3 := by
  unfold base basePart
  rw [sum_by_blocks, Fin.sum_univ_four]

/-- The four column blocks make up the whole contraction, and the order of the additions does not matter. -/
theorem blocked_eq_whole : blocked x W A B d bias = whole x W A B d bias := by
  funext i
  unfold blocked whole
  rw [base_eq_parts x W (i 0) (i 1) (i 2)]
  generalize corr x A B d bias (i 0) (i 1) (i 2) = c
  generalize basePart x W (i 0) (i 1) (i 2) 0 = p0
  generalize basePart x W (i 0) (i 1) (i 2) 1 = p1
  generalize basePart x W (i 0) (i 1) (i 2) 2 = p2
  generalize basePart x W (i 0) (i 1) (i 2) 3 = p3
  -- move the correction to the front, then regroup to the left
  rw [add_comm (((p0 + p1) + p2) + p3) c, ← add_assoc, ← add_assoc, ← add_assoc]

end Cert.AdapterSpec

end
-- ==== Proof.FlatSpec.lean ====
/-
  The same function over the arrays the two kernel regions see: the activations flattened to 8192 rows of 4096
  features, the rank scale and the bias as one-row matrices. `xa` is the scaled projection of every row;
  `out2`, from a projection array, the correction followed by the base contraction added in four blocks of 1024
  columns. Reading the flattened arrays back through the reshapes (row i of the flat arrays is (b,s) with
  i = 2048·b + s) turns `out2` of `xa` into `AdapterSpec.blocked`.
-/
import proofs.«131417_j40355512714085_1_alg».proof.Proof.AdapterSpec

noncomputable section

open scoped BigOperators

namespace Cert.FlatSpec

open Idealize.ShloMosaic Idealize.ShloMosaic.ValueIdx

/-- The flattened activations and the flat result: 8192 rows, 4096 features. -/
abbrev SX2 : Shape := ⟨2, ![8192, 4096]⟩
/-- The projection of every row: 8192 rows, rank 256. -/
abbrev SXa : Shape := ⟨2, ![8192, 256]⟩
/-- The rank scale and the bias as one-row matrices. -/
abbrev SD2 : Shape := ⟨2, ![1, 256]⟩
abbrev SBias2 : Shape := ⟨2, ![1, 4096]⟩

variable (x2 : FVec Ideal SX2 .f32) (W : FVec Ideal Cert.AdapterSpec.SW .f32) (A : FVec Ideal Cert.AdapterSpec.SA .f32)
  (B : FVec Ideal Cert.AdapterSpec.SB .f32) (d2 : FVec Ideal SD2 .f32) (b2 : FVec Ideal SBias2 .f32)

/-- Row i projected down to rank coordinate r and scaled. -/
def xaAt (i : Fin 8192) (r : Fin 256) : EReal :=
  (∑ k : Fin 4096, x2 (ix2 i k) * A (ix2 r k)) * d2 (ix2 (0 : Fin 1) r)

/-- The scaled projection of every row. -/
def xa : FVec Ideal SXa .f32 := fun j => xaAt x2 A d2 (j 0) (j 1)

/-- The base contraction of row i against output feature o over the q-th block of 1024 columns. -/
def partAt (i : Fin 8192) (o : Fin 4096) (q : Fin 4) : EReal :=
  ∑ k : Fin 1024, x2 (ix2 i ⟨1024 * q.val + k.val, by omega⟩) * W (ix2 o ⟨1024 * q.val + k.val, by omega⟩)

/-- From a projection array: the correction at (i,o), then the four column blocks added in order. -/
def out2At (xaArr : FVec Ideal SXa .f32) (i : Fin 8192) (o : Fin 4096) : EReal :=
  (((((∑ r : Fin 256, xaArr (ix2 i r) * B (ix2 o r)) + b2 (ix2 (0 : Fin 1) o)) + partAt x2 W i o 0) + partAt x2 W i o 1)
    + partAt x2 W i o 2) + partAt x2 W i o 3

/-- The flat result. -/
def out2 (xaArr : FVec Ideal SXa .f32) : FVec Ideal SX2 .f32 := fun j => out2At x2 W B b2 xaArr (j 0) (j 1)

end Cert.FlatSpec

end
-- ==== Proof.KernelIdeal.XaArray.lean ====
/-
  The projection region's result array, on the extended reals. Row block t of the result is written back once, at
  point t, with the scaled projection of rows 512·t … 512·t + 511 of the activations; the sixteen blocks cover the
  8192 rows. So the array the region leaves is the scaled projection of every row of the array it found.
-/
import proofs.«131417_j40355512714085_1_alg».proof.Proof.KernelIdeal.XaRegion
import proofs.«131417_j40355512714085_1_alg».proof.Proof.PayloadAt
import proofs.«131417_j40355512714085_1_alg».proof.Proof.FlatSpec
import Idealize.ShloMosaic.Lib.Pipeline.Value
import Idealize.ShloMosaic.Lib.ValueIdx

set_option maxRecDepth 16384

noncomputable section

open scoped BigOperators

namespace Cert.KernelIdeal.Arrays

open Cert.KernelIdeal Cert.KernelIdeal.Gen Cert.KernelIdeal.Run
open Idealize.ShloMosaic Idealize.ShloMosaic.TcCoe Idealize.ShloMosaic.ValueIdx
open Idealize.ShloMosaic.Pipeline (Dat Cfg Window)

-- the buffer contents when the region is entered, at the extended reals
variable (V : (c : Dev nD) → (b : Ref sig .tc) → Buf (Elt Ideal) ((c : Thread nD τ).loc b))

/-- The pair of zero offsets is the constant zero. -/
private theorem zeros2 : (![0, 0] : Fin 2 → Nat) = fun _ => 0 := funext fun a => by fin_cases a <;> rfl

/-- Where each window's block sits at point t: the result and the activations are at row block t, column block 0;
    the down-projection and the rank scale are always at block (0, 0). -/
private theorem index_maps : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The region has sixteen points. -/
private theorem points16 : cfg0.N = 16 := N_0

/-- The three arrays the region reads, as it finds them: activations, down-projection, rank scale. -/
private abbrev acts (c : Dev nD) : Vec Ideal S8192x4096 .f32 := V c main_v0
private abbrev down (c : Dev nD) : Vec Ideal S256x4096 .f32 := V c main_arg2
private abbrev scale (c : Dev nD) : Vec Ideal S1x256 .f32 := V c main_v1

/-- If row p of a block of activations is row i of the activations, and the other two blocks agree with their arrays
    at rank coordinate r, then the block's scaled projection at (p, r) is the scaled projection of row i at r. -/
private theorem proj_row (X : Vec Ideal S8192x4096 .f32) (A : Vec Ideal S256x4096 .f32) (D : Vec Ideal S1x256 .f32)
    (x0 : Vec Ideal S512x4096 .f32) (x1 : Vec Ideal S256x4096 .f32) (x2 : Vec Ideal S1x256 .f32)
    (i : Fin 8192) (p : Fin 512) (r : Fin 256)
    (h0 : ∀ k : Fin 4096, x0 (ix2 p k) = X (ix2 i k))
    (h1 : ∀ k : Fin 4096, x1 (ix2 r k) = A (ix2 r k))
    (h2 : x2 (ix2 (0 : Fin 1) r) = D (ix2 (0 : Fin 1) r)) :
    k0_pay1 (F := Ideal) x0 x1 x2 (ix2 p r) = Cert.FlatSpec.xaAt X A D i r := by
  rw [PayloadAt.proj_at]
  unfold Cert.FlatSpec.xaAt
  rw [h2]
  congr 1
  exact Finset.sum_congr rfl fun k _ => by rw [h0, h1]

/-- Row p of the activations' block at point t is row 512·t + p of the activations. -/
private theorem acts_block_at (c : Dev nD) (t : Fin cfg0.N) (p : Fin 512) (k : Fin 4096) (h : 512 * t.val + p.val < 8192) :
    (iblk0 V c 0 t : Vec Ideal S512x4096 .f32) (ix2 p k) = acts V c (ix2 ⟨512 * t.val + p.val, h⟩ k) := by
  obtain ⟨-, -, e0, e1, -⟩ := index_maps t
  unfold iblk0
  rw [View.read_apply]
  show V c main_v0 _ = V c main_v0 _
  congr 1
  funext a
  apply Fin.ext
  -- on each axis the array coordinate is block index × block size + the coordinate inside the block
  match a with
  | ⟨0, _⟩ => show win0_0.index t (0 : Fin 2) * 512 + 1 * p.val = 512 * t.val + p.val; rw [e0]; omega
  | ⟨1, _⟩ => show win0_0.index t (1 : Fin 2) * 4096 + 1 * k.val = k.val; rw [e1]; omega

/-- The down-projection's block is the whole down-projection at every point. -/
private theorem down_block_at (c : Dev nD) (t : Fin cfg0.N) (r : Fin 256) (k : Fin 4096) :
    (iblk0 V c 1 t : Vec Ideal S256x4096 .f32) (ix2 r k) = down V c (ix2 r k) := by
  obtain ⟨-, -, -, -, e0, e1, -⟩ := index_maps t
  unfold iblk0
  rw [View.read_apply]
  show V c main_arg2 _ = V c main_arg2 _
  congr 1
  funext a
  apply Fin.ext
  match a with
  | ⟨0, _⟩ => show win0_1.index t (0 : Fin 2) * 256 + 1 * r.val = r.val; rw [e0]; omega
  | ⟨1, _⟩ => show win0_1.index t (1 : Fin 2) * 4096 + 1 * k.val = k.val; rw [e1]; omega

/-- The rank scale's block is the whole rank scale at every point. -/
private theorem scale_block_at (c : Dev nD) (t : Fin cfg0.N) (r : Fin 256) :
    (iblk0 V c 2 t : Vec Ideal S1x256 .f32) (ix2 (0 : Fin 1) r) = scale V c (ix2 (0 : Fin 1) r) := by
  obtain ⟨-, -, -, -, -, -, e0, e1⟩ := index_maps t
  unfold iblk0
  rw [View.read_apply]
  show V c main_v1 _ = V c main_v1 _
  congr 1
  funext a
  apply Fin.ext
  match a with
  | ⟨0, _⟩ => show win0_2.index t (0 : Fin 2) * 1 + 1 * 0 = 0; rw [e0]
  | ⟨1, _⟩ => show win0_2.index t (1 : Fin 2) * 256 + 1 * r.val = r.val; rw [e1]; omega

/-- Entry (p, r) of the result's block at point t is entry (512·t + p, r) of the result. -/
private theorem out_block_row (t : Fin cfg0.N) (p : Fin 512) (r : Fin 256) (h : 512 * t.val + p.val < 8192) :
    ((cfg0.win 3).blk t).view.emb (ix2 p r) = (ix2 ⟨512 * t.val + p.val, h⟩ r : S8192x256.Idx) := by
  obtain ⟨e0, e1, -⟩ := index_maps t
  funext a
  apply Fin.ext
  match a with
  | ⟨0, _⟩ => show win0_3.index t (0 : Fin 2) * 512 + 1 * p.val = 512 * t.val + p.val; rw [e0]; omega
  | ⟨1, _⟩ => show win0_3.index t (1 : Fin 2) * 256 + 1 * r.val = r.val; rw [e1]; omega

/-- What point t writes back is block t of the scaled projection of every row. -/
private theorem written_back (c : Dev nD) (t : Fin cfg0.N) :
    (dat0 (F := Ideal) V c).flushed 3 t
      = ((cfg0.win 3).blk t).view.read (Elt Ideal) (Cert.FlatSpec.xa (V c main_v0) (V c main_arg2) (V c main_v1)) := by
  show (cfg0.win 3).cut (grid0.coords t) ((dat0 V c).after 3 t) = _
  rw [after0_3]
  unfold xaOut
  -- one store of the whole block leaves its payload
  rw [View.canon_unit_zero zeros2]
  funext y
  obtain ⟨p, r, rfl⟩ : ∃ (p : Fin 512) (r : Fin 256), y = ix2 p r := ⟨y 0, y 1, eq_ix2 y⟩
  have ht : t.val < 16 := lt_of_lt_of_eq t.isLt points16
  have hrow : 512 * t.val + p.val < 8192 := by have := p.isLt; omega
  rw [View.read_apply, out_block_row t p r hrow]
  show k0_pay1 (F := Ideal) (View.ld (iblk0 V c 0 t) r0_x) (View.ld (iblk0 V c 1 t) r0_a) (View.ld (iblk0 V c 2 t) r0_d) (ix2 p r)
    = Cert.FlatSpec.xaAt (acts V c) (down V c) (scale V c) ⟨512 * t.val + p.val, hrow⟩ r
  -- each load is of the whole buffer, so it reads the block; each block is its array read at the output's rows
  refine proj_row _ _ _ _ _ _ _ p r (fun k => ?_) (fun k => ?_) ?_
  · rw [View.ld_unit_zero (S := S512x4096) zeros2]; exact acts_block_at V c t p k hrow
  · rw [View.ld_unit_zero (S := S256x4096) zeros2]; exact down_block_at V c t r k
  · rw [View.ld_unit_zero (S := S1x256) zeros2]; exact scale_block_at V c t r

/-- An entry of the result is in point t's block iff each coordinate is in the block's range on its axis. -/
private theorem in_block_iff (t : Fin cfg0.N) (i : S8192x256.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v3).slice (win0_3.rect t)).set ↔ _
  rw [View.set_slice_whole, Rect.mem_set_unit]
  exact Iff.rfl

/-- Every entry of the result is in some point's block: row i is in block i / 512, and a block spans all 256 columns. -/
private theorem rows_covered (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  have ht : (i 0).val / 512 < cfg0.N := by rw [points16]; omega
  refine ⟨⟨(i 0).val / 512, ht⟩, flush0_3 _, ?_⟩
  rw [in_block_iff]
  obtain ⟨e0, e1, -⟩ := index_maps ⟨(i 0).val / 512, ht⟩
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_3.index ⟨(i 0).val / 512, ht⟩ (1 : Fin 2) * 256 ≤ (i 1).val
      ∧ (i 1).val < win0_3.index ⟨(i 0).val / 512, ht⟩ (1 : Fin 2) * 256 + 256
    rw [e1]; omega

/-- The projection region leaves, in its result array, the scaled projection of every row. -/
theorem xa_array (c : Dev nD) :
    (dat0 (F := Ideal) V c).arrAt 3 cfg0.N = Cert.FlatSpec.xa (V c main_v0) (V c main_arg2) (V c main_v1) :=
  (dat0 V c).arrAt_eq_of_cover 3 (Cert.FlatSpec.xa (V c main_v0) (V c main_arg2) (V c main_v1))
    (fun t _ => written_back V c t) rows_covered

end Cert.KernelIdeal.Arrays

end
-- ==== Proof.KernelIdeal.AccValue.lean ====
/-
  The accumulator's recursion in closed form. Read back from the pieces each case's run found, the accumulator after
  a point with t mod 4 = 0 is one accumulation step over the correction computed from that point's projection,
  up-projection and bias blocks; after any other point it is one accumulation step over what the point before left;
  and at a point with t mod 4 = 3 the output block's buffer holds exactly the accumulator.
-/
import proofs.«131417_j40355512714085_1_alg».proof.Proof.KernelIdeal.AccRegion
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The whole-buffer rectangle sits at offset zero along both axes. -/
private theorem hz : (![0, 0] : Fin 2 → Nat) = fun _ => 0 := funext fun a => by fin_cases a <;> rfl

/-- The reset-and-add case leaves one step over the correction of its three blocks. -/
theorem sout1_A_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 x1 : Vec F S1024x1024 .f32) (x2 x3 : Vec F S1024x256 .f32) (x4 : Vec F S1x1024 .f32) :
    sout1_A_0 c i arg3 harg3 arg4 harg4 arg5 harg5 arg6 harg6 arg7 harg7 arg8 harg8 arg9 harg9 hc0 hc1 x0 x1 x2 x3 x4 = k1_pay2 x0 x1 (k1_pay1 x2 x3 x4) := by
  unfold sout1_A_0
  rw [View.read_writes_eq_canon _ _ _ (scover1_A_0 c i arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, View.ld_unit_zero (S := S1024x1024) hz, View.ld_unit_zero (S := S1024x256) hz, View.ld_unit_zero (S := S1x1024) hz]

/-- The add case leaves one step over what it found. -/
theorem sout1_B_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 x1 : Vec F S1024x1024 .f32) (xs0 : Vec F S1024x1024 .f32) :
    sout1_B_0 c i arg3 harg3 arg4 harg4 arg5 harg5 arg6 harg6 arg7 harg7 arg8 harg8 arg9 harg9 hc0 hc1 x0 x1 xs0 = k1_pay2 x0 x1 xs0 := by
  unfold sout1_B_0
  rw [View.read_writes_eq_canon _ _ _ (scover1_B_0 c i arg3 harg3 arg4 harg4 arg5 harg5 arg6 harg6 arg7 harg7 arg8 harg8 arg9 harg9 hc0 hc1 x0 x1 xs0)]
  unfold kernelRun1_B
  dsimp only
  sl_unfold_words
  rw [View.canon_unit_zero hz]
  simp only [View.readAt_eq_ld, harg3.read_unread, harg4.read_unread, harg9.read_unread, View.ld_unit_zero (S := S1024x1024) hz]

/-- The add-and-copy-out case leaves the same in the accumulator, -/
theorem sout1_C_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 x1 : Vec F S1024x1024 .f32) (xs0 : Vec F S1024x1024 .f32) :
    sout1_C_0 c i arg3 harg3 arg4 harg4 arg5 harg5 arg6 harg6 arg7 harg7 arg8 harg8 arg9 harg9 hc0 hc1 x0 x1 xs0 = k1_pay2 x0 x1 xs0 := by
  unfold sout1_C_0
  rw [View.read_writes_eq_canon _ _ _ (scover1_C_0 c i arg3 harg3 arg4 harg4 arg5 harg5 arg6 harg6 arg7 harg7 arg8 harg8 arg9 harg9 hc0 hc1 x0 x1 xs0)]
  unfold kernelRun1_C
  dsimp only
  sl_unfold_words
  rw [View.canon_unit_zero hz]
  simp only [View.readAt_eq_ld, harg3.read_unread, harg4.read_unread, harg9.read_unread, View.ld_unit_zero (S := S1024x1024) hz]

/-- and copies it into the output block's buffer. -/
theorem out1_C_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 x1 : Vec F S1024x1024 .f32) (xs0 : Vec F S1024x1024 .f32) :
    out1_C_5 c i arg3 harg3 arg4 harg4 arg5 harg5 arg6 harg6 arg7 harg7 arg8 harg8 arg9 harg9 hc0 hc1 x0 x1 xs0 = k1_pay2 x0 x1 xs0 := by
  unfold out1_C_5
  rw [View.read_writes_eq_canon _ _ _ (cover1_C_5 c i arg3 harg3 arg4 harg4 arg5 harg5 arg6 harg6 arg7 harg7 arg8 harg8 arg9 harg9 hc0 hc1 x0 x1 xs0)]
  unfold kernelRun1_C
  dsimp only
  sl_unfold_words
  rw [View.canon_unit_zero hz, View.readCov_unit_zero (S := S1024x1024) _ hz]
  simp only [View.readAt_eq_ld, harg3.read_unread, harg4.read_unread, harg9.read_unread, View.ld_unit_zero (S := S1024x1024) hz]

/-- After a point at the first block of contracted columns. -/
theorem acc_first (c : Dev nD) (t : Fin cfg1.N) (h0 : t.val % 4 = 0) :
    (outsAt1 V c t.val t.isLt).2
      = k1_pay2 (iblk1 V c 0 t) (iblk1 V c 1 t) (k1_pay1 (iblk1 V c 2 t) (iblk1 V c 3 t) (iblk1 V c 4 t)) := by
  have h1 : ¬t.val % 4 = 3 := by omega
  rw [outsAt1_A V c t h0 h1]
  dsimp only
  exact sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- After any other point. -/
theorem acc_next (c : Dev nD) (t : Fin cfg1.N) (h0 : ¬t.val % 4 = 0) :
    (outsAt1 V c t.val t.isLt).2
      = k1_pay2 (iblk1 V c 0 t) (iblk1 V c 1 t) (outsAt1 V c (t.val - 1) (Nat.lt_of_le_of_lt (Nat.sub_le _ _) t.isLt)).2 := by
  by_cases h1 : t.val % 4 = 3
  · rw [outsAt1_C V c t h0 h1]
    dsimp only
    exact sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2
  · rw [outsAt1_B V c t h0 h1]
    dsimp only
    exact sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2

/-- At the last block of contracted columns the output block's buffer holds the accumulator. -/
theorem out_last (c : Dev nD) (t : Fin cfg1.N) (h3 : t.val % 4 = 3) :
    (outsAt1 V c t.val t.isLt).1 = (outsAt1 V c t.val t.isLt).2 := by
  have h0 : ¬t.val % 4 = 0 := by omega
  rw [outsAt1_C V c t h0 h3]
  dsimp only
  rw [out1_C_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h3) (iblk1 V c 0 t) (iblk1 V c 1 t) (outsAt1 V c (t.val - 1) (Nat.lt_of_le_of_lt (Nat.sub_le _ _) t.isLt)).2,
    sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h3) (iblk1 V c 0 t) (iblk1 V c 1 t) (outsAt1 V c (t.val - 1) (Nat.lt_of_le_of_lt (Nat.sub_le _ _) t.isLt)).2]

end Cert.KernelIdeal.Run

end
-- ==== Proof.KernelIdeal.AccArray.lean ====
/-
  The accumulating region's result array, on the extended reals. Output block (bi, bj) is written back once, at the
  last of its four points, with the accumulator: the correction of rows 1024·bi … and output features 1024·bj …
  (from the projection array, the up-projection and the bias), to which the four blocks of 1024 contracted columns
  were added in order. The 8 × 4 blocks cover the array. So the array the region leaves is the flat result of the
  arrays it found.
-/
import proofs.«131417_j40355512714085_1_alg».proof.Proof.KernelIdeal.AccValue
import proofs.«131417_j40355512714085_1_alg».proof.Proof.PayloadAt
import proofs.«131417_j40355512714085_1_alg».proof.Proof.FlatSpec
import Idealize.ShloMosaic.Lib.Pipeline.Value
import Idealize.ShloMosaic.Lib.ValueIdx

set_option maxRecDepth 16384

noncomputable section

open scoped BigOperators

namespace Cert.KernelIdeal.Arrays

open Cert.KernelIdeal Cert.KernelIdeal.Gen Cert.KernelIdeal.Run
open Idealize.ShloMosaic Idealize.ShloMosaic.TcCoe Idealize.ShloMosaic.ValueIdx
open Idealize.ShloMosaic.Pipeline (Dat Cfg Window)

-- the buffer contents when the region is entered, at the extended reals
variable (V : (c : Dev nD) → (b : Ref sig .tc) → Buf (Elt Ideal) ((c : Thread nD τ).loc b))

/-! ## Where each window's block sits

Point t of the 8 × 4 × 4 grid has row block t / 16, column block (t / 4) mod 4 and contracted block t mod 4. Each
window's block index at t, as the index maps compute it, decided once over the 128 points. -/

private theorem idx0 : ∀ t : Fin cfg1.N, win1_0.index t (0 : Fin 2) = t.val / 16 ∧ win1_0.index t (1 : Fin 2) = t.val % 4 :=
  (by decide +kernel : ∀ t : Fin grid1.N, win1_0.index t (0 : Fin 2) = t.val / 16 ∧ win1_0.index t (1 : Fin 2) = t.val % 4)
private theorem idx1 : ∀ t : Fin cfg1.N, win1_1.index t (0 : Fin 2) = (t.val / 4) % 4 ∧ win1_1.index t (1 : Fin 2) = t.val % 4 :=
  (by decide +kernel : ∀ t : Fin grid1.N, win1_1.index t (0 : Fin 2) = (t.val / 4) % 4 ∧ win1_1.index t (1 : Fin 2) = t.val % 4)
private theorem idx2 : ∀ t : Fin cfg1.N, win1_2.index t (0 : Fin 2) = t.val / 16 ∧ win1_2.index t (1 : Fin 2) = 0 :=
  (by decide +kernel : ∀ t : Fin grid1.N, win1_2.index t (0 : Fin 2) = t.val / 16 ∧ win1_2.index t (1 : Fin 2) = 0)
private theorem idx3 : ∀ t : Fin cfg1.N, win1_3.index t (0 : Fin 2) = (t.val / 4) % 4 ∧ win1_3.index t (1 : Fin 2) = 0 :=
  (by decide +kernel : ∀ t : Fin grid1.N, win1_3.index t (0 : Fin 2) = (t.val / 4) % 4 ∧ win1_3.index t (1 : Fin 2) = 0)
private theorem idx4 : ∀ t : Fin cfg1.N, win1_4.index t (0 : Fin 2) = 0 ∧ win1_4.index t (1 : Fin 2) = (t.val / 4) % 4 :=
  (by decide +kernel : ∀ t : Fin grid1.N, win1_4.index t (0 : Fin 2) = 0 ∧ win1_4.index t (1 : Fin 2) = (t.val / 4) % 4)
private theorem idx5 : ∀ t : Fin cfg1.N, win1_5.index t (0 : Fin 2) = t.val / 16 ∧ win1_5.index t (1 : Fin 2) = (t.val / 4) % 4 :=
  (by decide +kernel : ∀ t : Fin grid1.N, win1_5.index t (0 : Fin 2) = t.val / 16 ∧ win1_5.index t (1 : Fin 2) = (t.val / 4) % 4)

/-! ## Reading a block

An entry of a window's block is the entry of its array at block index times block size plus the entry's own
coordinate, axis by axis. -/

/-- The activations' block: entry (p, k) is the array at row 1024·bi + p, column 1024·q + k. -/
private theorem blk0_at (c : Dev nD) (t : Fin cfg1.N) (p k : Fin 1024) (I : Fin 8192) (K : Fin 4096)
    (hI : I.val = 1024 * (t.val / 16) + p.val) (hK : K.val = 1024 * (t.val % 4) + k.val) :
    (iblk1 V c 0 t : Vec Ideal S1024x1024 .f32) (ix2 p k) = (V c main_v0 : Vec Ideal S8192x4096 .f32) (ix2 I K) := by
  unfold iblk1
  show V c main_v0 (((cfg1.win 0).blk t).view.emb (ix2 p k)) = V c main_v0 (ix2 I K)
  congr 1
  funext a; apply Fin.ext
  obtain ⟨e0, e1⟩ := idx0 t
  match a with
  | ⟨0, _⟩ => show win1_0.index t (0 : Fin 2) * 1024 + 1 * p.val = I.val; omega
  | ⟨1, _⟩ => show win1_0.index t (1 : Fin 2) * 1024 + 1 * k.val = K.val; omega

/-- The base weights' block: entry (r, k) is the array at output feature 1024·bj + r, column 1024·q + k. -/
private theorem blk1_at (c : Dev nD) (t : Fin cfg1.N) (r k : Fin 1024) (O : Fin 4096) (K : Fin 4096)
    (hO : O.val = 1024 * ((t.val / 4) % 4) + r.val) (hK : K.val = 1024 * (t.val % 4) + k.val) :
    (iblk1 V c 1 t : Vec Ideal S1024x1024 .f32) (ix2 r k) = (V c main_arg1 : Vec Ideal S4096x4096 .f32) (ix2 O K) := by
  unfold iblk1
  show V c main_arg1 (((cfg1.win 1).blk t).view.emb (ix2 r k)) = V c main_arg1 (ix2 O K)
  congr 1
  funext a; apply Fin.ext
  obtain ⟨e0, e1⟩ := idx1 t
  match a with
  | ⟨0, _⟩ => show win1_1.index t (0 : Fin 2) * 1024 + 1 * r.val = O.val; omega
  | ⟨1, _⟩ => show win1_1.index t (1 : Fin 2) * 1024 + 1 * k.val = K.val; omega

/-- The projection's block: entry (p, s) is the array at row 1024·bi + p, rank coordinate s. -/
private theorem blk2_at (c : Dev nD) (t : Fin cfg1.N) (p : Fin 1024) (s : Fin 256) (I : Fin 8192)
    (hI : I.val = 1024 * (t.val / 16) + p.val) :
    (iblk1 V c 2 t : Vec Ideal S1024x256 .f32) (ix2 p s) = (V c main_v3 : Vec Ideal S8192x256 .f32) (ix2 I s) := by
  unfold iblk1
  show V c main_v3 (((cfg1.win 2).blk t).view.emb (ix2 p s)) = V c main_v3 (ix2 I s)
  congr 1
  funext a; apply Fin.ext
  obtain ⟨e0, e1⟩ := idx2 t
  match a with
  | ⟨0, _⟩ => show win1_2.index t (0 : Fin 2) * 1024 + 1 * p.val = I.val; omega
  | ⟨1, _⟩ => show win1_2.index t (1 : Fin 2) * 256 + 1 * s.val = s.val; omega

/-- The up-projection's block: entry (r, s) is the array at output feature 1024·bj + r, rank coordinate s. -/
private theorem blk3_at (c : Dev nD) (t : Fin cfg1.N) (r : Fin 1024) (s : Fin 256) (O : Fin 4096)
    (hO : O.val = 1024 * ((t.val / 4) % 4) + r.val) :
    (iblk1 V c 3 t : Vec Ideal S1024x256 .f32) (ix2 r s) = (V c main_arg3 : Vec Ideal S4096x256 .f32) (ix2 O s) := by
  unfold iblk1
  show V c main_arg3 (((cfg1.win 3).blk t).view.emb (ix2 r s)) = V c main_arg3 (ix2 O s)
  congr 1
  funext a; apply Fin.ext
  obtain ⟨e0, e1⟩ := idx3 t
  match a with
  | ⟨0, _⟩ => show win1_3.index t (0 : Fin 2) * 1024 + 1 * r.val = O.val; omega
  | ⟨1, _⟩ => show win1_3.index t (1 : Fin 2) * 256 + 1 * s.val = s.val; omega

/-- The bias's block: its one row at column r is the array's one row at output feature 1024·bj + r. -/
private theorem blk4_at (c : Dev nD) (t : Fin cfg1.N) (r : Fin 1024) (O : Fin 4096)
    (hO : O.val = 1024 * ((t.val / 4) % 4) + r.val) :
    (iblk1 V c 4 t : Vec Ideal S1x1024 .f32) (ix2 (0 : Fin 1) r) = (V c main_v2 : Vec Ideal S1x4096 .f32) (ix2 (0 : Fin 1) O) := by
  unfold iblk1
  show V c main_v2 (((cfg1.win 4).blk t).view.emb (ix2 (0 : Fin 1) r)) = V c main_v2 (ix2 (0 : Fin 1) O)
  congr 1
  funext a; apply Fin.ext
  obtain ⟨e0, e1⟩ := idx4 t
  match a with
  | ⟨0, _⟩ => show win1_4.index t (0 : Fin 2) * 1 + 1 * (0 : Fin 1).val = (0 : Fin 1).val; omega
  | ⟨1, _⟩ => show win1_4.index t (1 : Fin 2) * 1024 + 1 * r.val = O.val; omega

/-! ## The accumulator, entry by entry

By induction on the contracted block: after the point with contracted block q the accumulator holds, at (p, r), the
correction at row 1024·bi + p and output feature 1024·bj + r followed by the parts 0, …, q of the base contraction,
added in that order. The points t and t − 1 share their row and column blocks whenever t mod 4 ≠ 0. -/

/-- The correction at row i, output feature o: the projection taken back up, plus the bias. -/
private def corrOf (xa : Vec Ideal S8192x256 .f32) (B : Vec Ideal S4096x256 .f32) (b2 : Vec Ideal S1x4096 .f32)
    (i : Fin 8192) (o : Fin 4096) : EReal :=
  (∑ s : Fin 256, xa (ix2 i s) * B (ix2 o s)) + b2 (ix2 (0 : Fin 1) o)

/-- A product of two blocks over their 1024 columns, when the blocks read the arrays at row i resp. o and columns
    1024·q + k, is the q-th part of the base contraction at (i, o). -/
private theorem part_of_reads (v3 v6 : Vec Ideal S1024x1024 .f32) (x2 : Vec Ideal S8192x4096 .f32) (W : Vec Ideal S4096x4096 .f32)
    (bq : ℕ) (q : Fin 4) (hq : bq = q.val) (p r : Fin 1024) (i : Fin 8192) (o : Fin 4096)
    (h3 : ∀ (k : Fin 1024) (K : Fin 4096), K.val = 1024 * bq + k.val → v3 (ix2 p k) = x2 (ix2 i K))
    (h6 : ∀ (k : Fin 1024) (K : Fin 4096), K.val = 1024 * bq + k.val → v6 (ix2 r k) = W (ix2 o K)) :
    (∑ k : Fin 1024, v3 (ix2 p k) * v6 (ix2 r k)) = Cert.FlatSpec.partAt x2 W i o q := by
  unfold Cert.FlatSpec.partAt
  refine Finset.sum_congr rfl fun k _ => ?_
  rw [h3 k ⟨1024 * q.val + k.val, by omega⟩ (by show 1024 * q.val + k.val = _; omega),
    h6 k ⟨1024 * q.val + k.val, by omega⟩ (by show 1024 * q.val + k.val = _; omega)]

/-- The correction of three blocks, when they read the arrays at row i resp. output feature o, is the correction at (i, o). -/
private theorem corr_of_reads (v17 v19 : Vec Ideal S1024x256 .f32) (v21 : Vec Ideal S1x1024 .f32)
    (xa : Vec Ideal S8192x256 .f32) (B : Vec Ideal S4096x256 .f32) (b2 : Vec Ideal S1x4096 .f32)
    (p r : Fin 1024) (i : Fin 8192) (o : Fin 4096)
    (h17 : ∀ s : Fin 256, v17 (ix2 p s) = xa (ix2 i s)) (h19 : ∀ s : Fin 256, v19 (ix2 r s) = B (ix2 o s))
    (h21 : v21 (ix2 (0 : Fin 1) r) = b2 (ix2 (0 : Fin 1) o)) :
    (∑ s : Fin 256, v17 (ix2 p s) * v19 (ix2 r s)) + v21 (ix2 (0 : Fin 1) r) = corrOf xa B b2 i o := by
  unfold corrOf
  rw [h21]
  refine congrArg (· + _) (Finset.sum_congr rfl fun s _ => ?_)
  rw [h17 s, h19 s]

open Cert.KernelIdeal.PayloadAt in
/-- After the first contracted block: the correction plus the first part. -/
private theorem acc0 (c : Dev nD) (t : Fin cfg1.N) (h : t.val % 4 = 0) (p r : Fin 1024)
    (i : Fin 8192) (o : Fin 4096) (hi : i.val = 1024 * (t.val / 16) + p.val) (ho : o.val = 1024 * ((t.val / 4) % 4) + r.val) :
    (outsAt1 V c t.val t.isLt).2 (ix2 p r)
      = corrOf (V c main_v3) (V c main_arg3) (V c main_v2) i o + Cert.FlatSpec.partAt (V c main_v0) (V c main_arg1) i o 0 := by
  rw [acc_first V c t h, step_at, corr_at,
    corr_of_reads (iblk1 V c 2 t) (iblk1 V c 3 t) (iblk1 V c 4 t) (V c main_v3) (V c main_arg3) (V c main_v2) p r i o
      (fun s => blk2_at V c t p s i hi) (fun s => blk3_at V c t r s o ho) (blk4_at V c t r o ho),
    part_of_reads (iblk1 V c 0 t) (iblk1 V c 1 t) (V c main_v0) (V c main_arg1) (t.val % 4) 0 h p r i o
      (fun k K hK => blk0_at V c t p k i K hi hK) (fun k K hK => blk1_at V c t r k o K ho hK)]

open Cert.KernelIdeal.PayloadAt in
/-- After the second contracted block. -/
private theorem acc1 (c : Dev nD) (t : Fin cfg1.N) (h : t.val % 4 = 1) (p r : Fin 1024)
    (i : Fin 8192) (o : Fin 4096) (hi : i.val = 1024 * (t.val / 16) + p.val) (ho : o.val = 1024 * ((t.val / 4) % 4) + r.val) :
    (outsAt1 V c t.val t.isLt).2 (ix2 p r)
      = (corrOf (V c main_v3) (V c main_arg3) (V c main_v2) i o + Cert.FlatSpec.partAt (V c main_v0) (V c main_arg1) i o 0)
        + Cert.FlatSpec.partAt (V c main_v0) (V c main_arg1) i o 1 := by
  have hp := acc0 V c ⟨t.val - 1, Nat.lt_of_le_of_lt (Nat.sub_le _ _) t.isLt⟩ (by show (t.val - 1) % 4 = 0; omega) p r i o
    (by show i.val = 1024 * ((t.val - 1) / 16) + p.val; omega) (by show o.val = 1024 * (((t.val - 1) / 4) % 4) + r.val; omega)
  rw [acc_next V c t (by omega), step_at,
    part_of_reads (iblk1 V c 0 t) (iblk1 V c 1 t) (V c main_v0) (V c main_arg1) (t.val % 4) 1 h p r i o
      (fun k K hK => blk0_at V c t p k i K hi hK) (fun k K hK => blk1_at V c t r k o K ho hK)]
  exact congrArg (· + _) hp

open Cert.KernelIdeal.PayloadAt in
/-- After the third contracted block. -/
private theorem acc2 (c : Dev nD) (t : Fin cfg1.N) (h : t.val % 4 = 2) (p r : Fin 1024)
    (i : Fin 8192) (o : Fin 4096) (hi : i.val = 1024 * (t.val / 16) + p.val) (ho : o.val = 1024 * ((t.val / 4) % 4) + r.val) :
    (outsAt1 V c t.val t.isLt).2 (ix2 p r)
      = ((corrOf (V c main_v3) (V c main_arg3) (V c main_v2) i o + Cert.FlatSpec.partAt (V c main_v0) (V c main_arg1) i o 0)
          + Cert.FlatSpec.partAt (V c main_v0) (V c main_arg1) i o 1)
        + Cert.FlatSpec.partAt (V c main_v0) (V c main_arg1) i o 2 := by
  have hp := acc1 V c ⟨t.val - 1, Nat.lt_of_le_of_lt (Nat.sub_le _ _) t.isLt⟩ (by show (t.val - 1) % 4 = 1; omega) p r i o
    (by show i.val = 1024 * ((t.val - 1) / 16) + p.val; omega) (by show o.val = 1024 * (((t.val - 1) / 4) % 4) + r.val; omega)
  rw [acc_next V c t (by omega), step_at,
    part_of_reads (iblk1 V c 0 t) (iblk1 V c 1 t) (V c main_v0) (V c main_arg1) (t.val % 4) 2 h p r i o
      (fun k K hK => blk0_at V c t p k i K hi hK) (fun k K hK => blk1_at V c t r k o K ho hK)]
  exact congrArg (· + _) hp

open Cert.KernelIdeal.PayloadAt in
/-- After the last contracted block: the flat result at (i, o). -/
private theorem acc3 (c : Dev nD) (t : Fin cfg1.N) (h : t.val % 4 = 3) (p r : Fin 1024)
    (i : Fin 8192) (o : Fin 4096) (hi : i.val = 1024 * (t.val / 16) + p.val) (ho : o.val = 1024 * ((t.val / 4) % 4) + r.val) :
    (outsAt1 V c t.val t.isLt).2 (ix2 p r)
      = Cert.FlatSpec.out2At (V c main_v0) (V c main_arg1) (V c main_arg3) (V c main_v2) (V c main_v3) i o := by
  have hp := acc2 V c ⟨t.val - 1, Nat.lt_of_le_of_lt (Nat.sub_le _ _) t.isLt⟩ (by show (t.val - 1) % 4 = 2; omega) p r i o
    (by show i.val = 1024 * ((t.val - 1) / 16) + p.val; omega) (by show o.val = 1024 * (((t.val - 1) / 4) % 4) + r.val; omega)
  rw [acc_next V c t (by omega), step_at,
    part_of_reads (iblk1 V c 0 t) (iblk1 V c 1 t) (V c main_v0) (V c main_arg1) (t.val % 4) 3 h p r i o
      (fun k K hK => blk0_at V c t p k i K hi hK) (fun k K hK => blk1_at V c t r k o K ho hK)]
  exact congrArg (· + _) hp

/-! ## What is written back, and the whole array -/

/-- A point at the last contracted block writes back its block of the flat result. -/
private theorem flushed_eq (c : Dev nD) (t : Fin cfg1.N) (h3 : t.val % 4 = 3) :
    (dat1 (F := Ideal) V c).flushed 5 t
      = ((cfg1.win 5).blk t).view.read (Elt Ideal) (Cert.FlatSpec.out2 (V c main_v0) (V c main_arg1) (V c main_arg3) (V c main_v2) (V c main_v3)) := by
  show (cfg1.win 5).cut (grid1.coords t) ((dat1 V c).after 5 t) = _
  rw [after1_5, out_last V c t h3]
  funext y
  have e : (cfg1.win 5).xinj (grid1.coords t) y = ix2 (y 0 : Fin 1024) (y 1 : Fin 1024) :=
    funext fun a => match a with | ⟨0, _⟩ => rfl | ⟨1, _⟩ => rfl
  show (outsAt1 V c t.val t.isLt).2 ((cfg1.win 5).xinj (grid1.coords t) y) = _
  rw [e]
  obtain ⟨e0, e1⟩ := idx5 t
  refine (acc3 V c t h3 (y 0) (y 1) ((((cfg1.win 5).blk t).view.emb y) 0) ((((cfg1.win 5).blk t).view.emb y) 1) ?_ ?_).trans ?_
  · show win1_5.index t (0 : Fin 2) * 1024 + 1 * (y 0).val = _
    omega
  · show win1_5.index t (1 : Fin 2) * 1024 + 1 * (y 1).val = _
    omega
  · rfl

/-- An index of the result array lies in point t's block when each coordinate lies in the block's range on its axis. -/
private theorem mem_blk5 (t : Fin cfg1.N) (i : S8192x4096.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v4).slice (win1_5.rect t)).set ↔ _
  rw [View.set_slice_whole, Rect.mem_set_unit]
  exact Iff.rfl

/-- The accumulating region leaves, in its result array, the flat result of the arrays it found. -/
theorem out_array (c : Dev nD) :
    (dat1 (F := Ideal) V c).arrAt 5 cfg1.N
      = Cert.FlatSpec.out2 (V c main_v0) (V c main_arg1) (V c main_arg3) (V c main_v2) (V c main_v3) := by
  refine (dat1 V c).arrAt_eq_of_cover 5 (Cert.FlatSpec.out2 (V c main_v0) (V c main_arg1) (V c main_arg3) (V c main_v2) (V c main_v3))
    (fun t ht => flushed_eq V c t ((flush1_5 t).mp ht)) fun (i : S8192x4096.Idx) => ?_
  have hi0 : (i 0).val < 8192 := (i 0).isLt
  have hi1 : (i 1).val < 4096 := (i 1).isLt
  have hN : cfg1.N = 128 := N_1
  have ht : 16 * ((i 0).val / 1024) + 4 * ((i 1).val / 1024) + 3 < cfg1.N := by omega
  have e0 : win1_5.index ⟨_, ht⟩ (0 : Fin 2) = (16 * ((i 0).val / 1024) + 4 * ((i 1).val / 1024) + 3) / 16 := (idx5 ⟨_, ht⟩).1
  have e1 : win1_5.index ⟨_, ht⟩ (1 : Fin 2) = ((16 * ((i 0).val / 1024) + 4 * ((i 1).val / 1024) + 3) / 4) % 4 := (idx5 ⟨_, ht⟩).2
  refine ⟨⟨_, ht⟩, (flush1_5 _).mpr (by show (16 * ((i 0).val / 1024) + 4 * ((i 1).val / 1024) + 3) % 4 = 3; omega), ?_⟩
  rw [mem_blk5]
  intro a
  match a with
  | ⟨0, _⟩ =>
    show win1_5.index ⟨_, ht⟩ (0 : Fin 2) * 1024 ≤ (i 0).val ∧ (i 0).val < win1_5.index ⟨_, ht⟩ (0 : Fin 2) * 1024 + 1024
    omega
  | ⟨1, _⟩ =>
    show win1_5.index ⟨_, ht⟩ (1 : Fin 2) * 1024 ≤ (i 1).val ∧ (i 1).val < win1_5.index ⟨_, ht⟩ (1 : Fin 2) * 1024 + 1024
    omega

end Cert.KernelIdeal.Arrays

end
-- ==== Proof.Unflatten.lean ====
/-
  Reading the flat arrays back through the reshapes. Row i of a flattened array is (b,s) with i = 2048·b + s, the
  one-row rank scale and bias are the vectors they were cast from, and the flat result cast back to batch by sequence
  is read at (b,s,o) from row 2048·b + s. So the flat result of the flattened arguments, cast back, is
  `AdapterSpec.blocked` of the arguments.
-/
import proofs.«131417_j40355512714085_1_alg».proof.Proof.FlatSpec
import Idealize.ShloMosaic.Lib.Pipeline.Value

noncomputable section

open scoped BigOperators

namespace Cert.FlatSpec

open Idealize.ShloMosaic Idealize.ShloMosaic.ValueIdx Cert.AdapterSpec

/-- Row 2048·b + s of the flattened activations is row (b,s) of the activations: both entries sit at row-major
position (2048·b + s)·4096 + k. -/
private theorem flatX_apply (hx : SX.ShapeCasts SX2) (x : FVec Ideal SX .f32) (b : Fin 4) (s : Fin 2048) (k : Fin 4096)
    (h : 2048 * b.val + s.val < 8192) :
    shapeCast SX2 x hx (ix2 (⟨2048 * b.val + s.val, h⟩ : Fin 8192) k) = x (ix3 b s k) := by
  refine shapeCast_apply x hx _ (ix3 b s k) ?_
  rw [Shape.rowMajor_val_three, Shape.rowMajor_val_two]
  show (b.val * 2048 + s.val) * 4096 + k.val = (2048 * b.val + s.val) * 4096 + k.val
  omega

/-- The one-row rank scale read at (0,r) is the scale at r: position 0·256 + r is r. -/
private theorem flatD_apply (hd : SD.ShapeCasts SD2) (d : FVec Ideal SD .f32) (r : Fin 256) :
    shapeCast SD2 d hd (ix2 (0 : Fin 1) r) = d (ix1 r) := by
  refine shapeCast_apply d hd _ (ix1 r) ?_
  rw [Shape.rowMajor_val_one, Shape.rowMajor_val_two]
  show r.val = 0 * 256 + r.val
  omega

/-- The one-row bias read at (0,o) is the bias at o: position 0·4096 + o is o. -/
private theorem flatBias_apply (hb : SBias.ShapeCasts SBias2) (bias : FVec Ideal SBias .f32) (o : Fin 4096) :
    shapeCast SBias2 bias hb (ix2 (0 : Fin 1) o) = bias (ix1 o) := by
  refine shapeCast_apply bias hb _ (ix1 o) ?_
  rw [Shape.rowMajor_val_one, Shape.rowMajor_val_two]
  show o.val = 0 * 4096 + o.val
  omega

/-- A flat array cast back to batch by sequence is read at (b,s,o) from row 2048·b + s, column o. -/
private theorem unflat_apply (ho : SX2.ShapeCasts SX) (y : FVec Ideal SX2 .f32) (b : Fin 4) (s : Fin 2048) (o : Fin 4096)
    (h : 2048 * b.val + s.val < 8192) :
    shapeCast SX y ho (ix3 b s o) = y (ix2 (⟨2048 * b.val + s.val, h⟩ : Fin 8192) o) := by
  refine shapeCast_apply y ho _ (ix2 (⟨2048 * b.val + s.val, h⟩ : Fin 8192) o) ?_
  rw [Shape.rowMajor_val_three, Shape.rowMajor_val_two]
  show (2048 * b.val + s.val) * 4096 + o.val = (b.val * 2048 + s.val) * 4096 + o.val
  omega

/-- The flat result of the flattened arguments, cast back to batch by sequence, is the blocked form. -/
theorem unflatten (hx : SX.ShapeCasts SX2) (hd : SD.ShapeCasts SD2) (hb : SBias.ShapeCasts SBias2) (ho : SX2.ShapeCasts SX)
    (x : FVec Ideal SX .f32) (W : FVec Ideal SW .f32) (A : FVec Ideal SA .f32) (B : FVec Ideal SB .f32)
    (d : FVec Ideal SD .f32) (bias : FVec Ideal SBias .f32) :
    shapeCast SX (out2 (shapeCast SX2 x hx) W B (shapeCast SBias2 bias hb) (xa (shapeCast SX2 x hx) A (shapeCast SD2 d hd))) ho
      = blocked x W A B d bias := by
  -- entry by entry, at the coordinates (b,s,o)
  funext i
  obtain ⟨b, s, o, rfl⟩ : ∃ (b : Fin 4) (s : Fin 2048) (o : Fin 4096), i = ix3 b s o := ⟨i 0, i 1, i 2, eq_ix3 i⟩
  have hbs : 2048 * b.val + s.val < 8192 := by omega
  -- the cast back reads the flat result at row 2048·b + s
  rw [unflat_apply ho _ b s o hbs]
  unfold out2 out2At xa xaAt partAt blocked corr proj basePart
  -- under every sum the flattened activations, scale and bias are the original entries; the additions are already
  -- in the blocked form's order, so the two sides are then the same expression
  simp only [flatX_apply, flatD_apply, flatBias_apply]

end Cert.FlatSpec

end
-- ==== Proof.KernelIdeal.Result.lean ====
/-
  The idealized kernel's result as a function of its arguments. After the three reshapes the flattened activations,
  the one-row rank scale and the one-row bias are casts of the arguments. The projection region writes the scaled
  projection of every flattened row into its result array and changes no other array; the accumulating region writes
  the flat result of the arrays it finds into its result array; the last reshape casts that back to batch by
  sequence. Read back through the casts this is `AdapterSpec.blocked` of the arguments, which the run therefore
  leaves in the result buffer, beside the arguments as launched.
-/
import proofs.«131417_j40355512714085_1_alg».proof.Proof.KernelIdeal.MainRun
import proofs.«131417_j40355512714085_1_alg».proof.Proof.KernelIdeal.XaArray
import proofs.«131417_j40355512714085_1_alg».proof.Proof.KernelIdeal.AccArray
import proofs.«131417_j40355512714085_1_alg».proof.Proof.Unflatten
import Idealize.ShloMosaic.Lib.StableHlo.Run

set_option maxRecDepth 16384

noncomputable section

namespace Cert.KernelIdeal.Arrays

open Cert.KernelIdeal Cert.KernelIdeal.Gen Cert.KernelIdeal.Run
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## After the three reshapes -/

theorem V1_main_v0 (c : Dev nD) :
    (V1 m c main_v0 : S8192x4096.Idx → EReal) = shapeCast S8192x4096 (m ((c : Thread nD τ).loc main_arg0)) shapeCasts_S4x2048x4096_S8192x4096 := by
  dsimp only [V1, W1, W0, hostOps0]; after_results; rfl
theorem V1_main_v1 (c : Dev nD) :
    (V1 m c main_v1 : S1x256.Idx → EReal) = shapeCast S1x256 (m ((c : Thread nD τ).loc main_arg4)) shapeCasts_S256_S1x256 := by
  dsimp only [V1, W1, W0, hostOps0]; after_results; rfl
theorem V1_main_v2 (c : Dev nD) :
    (V1 m c main_v2 : S1x4096.Idx → EReal) = shapeCast S1x4096 (m ((c : Thread nD τ).loc main_arg5)) shapeCasts_S4096_S1x4096 := by
  dsimp only [V1, W1, W0, hostOps0]; after_results; rfl
theorem V1_main_arg1 (c : Dev nD) : V1 m c main_arg1 = m ((c : Thread nD τ).loc main_arg1) := by
  dsimp only [V1, W1, W0, hostOps0]; after_results
theorem V1_main_arg2 (c : Dev nD) : V1 m c main_arg2 = m ((c : Thread nD τ).loc main_arg2) := by
  dsimp only [V1, W1, W0, hostOps0]; after_results
theorem V1_main_arg3 (c : Dev nD) : V1 m c main_arg3 = m ((c : Thread nD τ).loc main_arg3) := by
  dsimp only [V1, W1, W0, hostOps0]; after_results

/-! ## After the projection region -/

/-- Its result array holds the scaled projection of every flattened row. -/
theorem V2_main_v3 (c : Dev nD) :
    V2 m c main_v3 = Cert.FlatSpec.xa (V1 m c main_v0) (V1 m c main_arg2) (V1 m c main_v1) :=
  (W2_arr m c 3).trans (xa_array (V1 m) c)
/-- The flattened activations are an input of it: unchanged. -/
theorem V2_main_v0 (c : Dev nD) : V2 m c main_v0 = V1 m c main_v0 :=
  (W2_arr m c 0).trans (((dat0 (V1 m) c).arrAt_in 0 rfl _).trans (A_eq0 (V1 m) c 0))
/-- The base weight, the up-projection and the one-row bias are no array of it: unchanged. -/
theorem V2_main_arg1 (c : Dev nD) : V2 m c main_arg1 = V1 m c main_arg1 := W2_of_ne m c main_arg1 (by decide)
theorem V2_main_arg3 (c : Dev nD) : V2 m c main_arg3 = V1 m c main_arg3 := W2_of_ne m c main_arg3 (by decide)
theorem V2_main_v2 (c : Dev nD) : V2 m c main_v2 = V1 m c main_v2 := W2_of_ne m c main_v2 (by decide)

/-! ## After the accumulating region, and the last reshape -/

/-- Its result array holds the flat result of the arrays it found. -/
theorem V3_main_v4 (c : Dev nD) :
    V3 m c main_v4 = Cert.FlatSpec.out2 (V2 m c main_v0) (V2 m c main_arg1) (V2 m c main_arg3) (V2 m c main_v2) (V2 m c main_v3) :=
  (W3_arr m c 5).trans (out_array (V2 m) c)

theorem W4_main_v5 (c : Dev nD) :
    (W4 m c (Proc.devRef .tc main_v5) : S4x2048x4096.Idx → EReal) = shapeCast S4x2048x4096 (V3 m c main_v4) shapeCasts_S8192x4096_S4x2048x4096 := by
  dsimp only [W4, V3, hostOps2]; after_results; rfl

/-- The result buffer at the end, as a function of the arguments at launch. -/
theorem result_eq (c : Dev nD) :
    W4 m c (Proc.devRef .tc main_v5) = Cert.AdapterSpec.blocked (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  rw [W4_main_v5, V3_main_v4, V2_main_v3, V2_main_v0, V2_main_arg1, V2_main_arg3, V2_main_v2,
    V1_main_v0, V1_main_v1, V1_main_v2, V1_main_arg1, V1_main_arg2, V1_main_arg3]
  exact Cert.FlatSpec.unflatten _ _ _ _ _ _ _ _ _ _

/-- Every weakly fair execution terminates with the result buffer at the blocked form of the arguments and the
    arguments as launched. -/
theorem value_run : θ_run defs (onTc (τ := τ) (main (F := Ideal))) ⟨m, fun _ => 0, ρ⟩ (fun r => ∀ c : Dev nD,
      r.2.mem ((c.tc : Thread nD τ).loc main_v5) = Cert.AdapterSpec.blocked (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v5 (by decide))).trans (result_eq m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.KernelIdeal.Arrays

end
-- ==== Proof.RefIsWhole.lean ====
/-
  The reference's result, read one operation at a time, is the function `AdapterSpec.whole` of its arguments:
  three contractions, the broadcast of the rank scale and of the bias, one product and two sums, each read at an
  index (b,s,o).
-/
import proofs.«131417_j40355512714085_1_alg».proof.Proof.Gen.ReferenceIdeal.Read
import proofs.«131417_j40355512714085_1_alg».proof.Proof.AdapterSpec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The last stage of the reference, at Ideal, is one full contraction plus the low-rank correction. -/
theorem ref_is_whole (x : FVec Ideal S4x2048x4096 .f32) (W : FVec Ideal S4096x4096 .f32) (A : FVec Ideal S256x4096 .f32)
    (B : FVec Ideal S4096x256 .f32) (d : FVec Ideal S256 .f32) (bias : FVec Ideal S4096 .f32) :
    val_main_v9 (F := Ideal) x W A B d bias = Cert.AdapterSpec.whole x W A B d bias := by
  funext i
  obtain ⟨b, s, o, rfl⟩ : ∃ (b : Fin 4) (s : Fin 2048) (o : Fin 4096), i = ix3 b s o :=
    ⟨i 0, i 1, i 2, eq_ix3 i⟩
  -- where each stage reads its operands, in coordinates
  have e0l : ∀ k : Fin 4096, lidx_main_v0 (ix3 b s o) k = ix3 b s k := fun k =>
    funext fun a => Fin.ext (by match a with | ⟨0, _⟩ => rfl | ⟨1, _⟩ => rfl | ⟨2, _⟩ => rfl)
  have e0r : ∀ k : Fin 4096, ridx_main_v0 (ix3 b s o) k = ix2 o k := fun k =>
    funext fun a => Fin.ext (by match a with | ⟨0, _⟩ => rfl | ⟨1, _⟩ => rfl)
  have e5l : ∀ r : Fin 256, lidx_main_v5 (ix3 b s o) r = ix3 b s r := fun r =>
    funext fun a => Fin.ext (by match a with | ⟨0, _⟩ => rfl | ⟨1, _⟩ => rfl | ⟨2, _⟩ => rfl)
  have e5r : ∀ r : Fin 256, ridx_main_v5 (ix3 b s o) r = ix2 o r := fun r =>
    funext fun a => Fin.ext (by match a with | ⟨0, _⟩ => rfl | ⟨1, _⟩ => rfl)
  have e1l : ∀ (r : Fin 256) (k : Fin 4096), lidx_main_v1 (ix3 b s r) k = ix3 b s k := fun r k =>
    funext fun a => Fin.ext (by match a with | ⟨0, _⟩ => rfl | ⟨1, _⟩ => rfl | ⟨2, _⟩ => rfl)
  have e1r : ∀ (r : Fin 256) (k : Fin 4096), ridx_main_v1 (ix3 b s r) k = ix2 r k := fun r k =>
    funext fun a => Fin.ext (by match a with | ⟨0, _⟩ => rfl | ⟨1, _⟩ => rfl)
  have e3 : ∀ r : Fin 256, idx_main_v2 (idx_main_v3 (ix3 b s r)) = ix1 r := fun r =>
    funext fun a => Fin.ext (by match a with | ⟨0, _⟩ => rfl)
  have e7 : idx_main_v6 (idx_main_v7 (ix3 b s o)) = ix1 o :=
    funext fun a => Fin.ext (by match a with | ⟨0, _⟩ => rfl)
  rw [val_main_v9_apply, val_main_v0_apply, val_main_v8_apply, val_main_v5_apply, val_main_v7_apply,
    val_main_v6_apply]
  simp only [e5l, val_main_v4_apply, val_main_v1_apply, val_main_v3_apply, val_main_v2_apply,
    e0l, e0r, e5r, e1l, e1r, e3, e7]
  unfold AdapterSpec.whole AdapterSpec.base AdapterSpec.corr AdapterSpec.proj
  rfl

end Cert.ReferenceIdeal.RefValue

end
-- ==== Proof.lean ====
/-
  The certificate. The two kernel programs' frames are the run of @main's four items — three reshapes, the
  projection region, the accumulating region, one reshape — read at the argument buffers, at the word-level instance
  and at the extended reals; the reference's frame is its run with the result dropped. The idealization rewrote no
  operation, so there is nothing to preserve. On the extended reals the idealized kernel leaves in its result the
  correction (low-rank term plus bias) with the base contraction added in four blocks of 1024 columns, and the
  reference leaves one full contraction plus the correction; the two are one function because addition there is
  commutative and associative.
-/
import proofs.«131417_j40355512714085_1_alg».proof.Defs
import proofs.«131417_j40355512714085_1_alg».proof.Proof.Kernel.MainRun
import proofs.«131417_j40355512714085_1_alg».proof.Proof.KernelIdeal.Result
import proofs.«131417_j40355512714085_1_alg».proof.Proof.RefIsWhole
import proofs.«131417_j40355512714085_1_alg».proof.Proof.Gen.Kernel
import proofs.«131417_j40355512714085_1_alg».proof.Proof.Gen.KernelIdeal
import proofs.«131417_j40355512714085_1_alg».proof.Proof.Gen.ReferenceIdeal
import proofs.«131417_j40355512714085_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same function of the arguments in their result. -/
theorem algebraic : Cert.algebraic_KernelIdeal_ReferenceIdeal := by
  intro m ρ m' ρ' _ hagree
  refine ⟨_, Cert.KernelIdeal.Arrays.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_is_whole, ← Cert.AdapterSpec.blocked_eq_whole,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
